-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2x128 : Shape := ⟨2, ![2, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S1000000x128 .f32) (main_arg1 : FVec F S2x128 .f32) (main_arg2 : FVec F S2x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  main_v13
-- ==== Kernel.lean ====
abbrev S1000000x128 : Shape := ⟨2, ![1000000, 128]⟩
abbrev S2x128 : Shape := ⟨2, ![2, 128]⟩
abbrev S128x2 : Shape := ⟨2, ![128, 2]⟩
abbrev S1000000x2 : Shape := ⟨2, ![1000000, 2]⟩
abbrev S5000x128 : Shape := ⟨2, ![5000, 128]⟩
abbrev S5000x2 : Shape := ⟨2, ![5000, 2]⟩
abbrev S1x2 : Shape := ⟨2, ![1, 2]⟩
abbrev S5000x1 : Shape := ⟨2, ![5000, 1]⟩

abbrev nBuf : Space → Nat
  | .hbm => 8
  | .vmem => 16
  | .smem => 0
  | _ => 0

abbrev bufTy : (tb : Table) → Fin (tcTables nBuf tb) → BufTy
  | .hbm, ⟨0, _⟩ => ⟨S1000000x128, .f32⟩
  | .hbm, ⟨1, _⟩ => ⟨S2x128, .f32⟩
  | .hbm, ⟨2, _⟩ => ⟨S2x128, .f32⟩
  | .hbm, ⟨3, _⟩ => ⟨S128x2, .f32⟩
  | .hbm, ⟨4, _⟩ => ⟨S128x2, .f32⟩
  | .hbm, ⟨5, _⟩ => ⟨S1000000x2, .f32⟩
  | .hbm, ⟨6, _⟩ => ⟨S1000000x2, .f32⟩
  | .hbm, ⟨7, _⟩ => ⟨S1000000x2, .f32⟩
  | .local _ .vmem, ⟨0, _⟩ => ⟨S5000x128, .f32⟩
  | .local _ .vmem, ⟨1, _⟩ => ⟨S5000x128, .f32⟩
  | .local _ .vmem, ⟨2, _⟩ => ⟨S128x2, .f32⟩
  | .local _ .vmem, ⟨3, _⟩ => ⟨S128x2, .f32⟩
  | .local _ .vmem, ⟨4, _⟩ => ⟨S5000x2, .f32⟩
  | .local _ .vmem, ⟨5, _⟩ => ⟨S5000x2, .f32⟩
  | .local _ .vmem, ⟨6, _⟩ => ⟨S5000x2, .f32⟩
  | .local _ .vmem, ⟨7, _⟩ => ⟨S5000x2, .f32⟩
  | .local _ .vmem, ⟨8, _⟩ => ⟨S5000x2, .f32⟩
  | .local _ .vmem, ⟨9, _⟩ => ⟨S5000x2, .f32⟩
  | .local _ .vmem, ⟨10, _⟩ => ⟨S5000x2, .f32⟩
  | .local _ .vmem, ⟨11, _⟩ => ⟨S5000x2, .f32⟩
  | .local _ .vmem, ⟨12, _⟩ => ⟨S5000x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c200_i32 : BitVec 32 := 200#32
  let c0_i32 : BitVec 32 := 0#32
  let v1 : BitVec 1 := Scalar.cmpi .eq c200_i32 c0_i32
  let c1_i32_0 : BitVec 32 := 1#32
  let v2 : BitVec 32 := Scalar.select v1 c1_i32_0 c200_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S2x128_S128x2_1_0 : S2x128.Transposes [1, 0] S128x2
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  rotates_S5000x2_d0 : S5000x2.Rotates 0 none
  iota_S5000x2_d0_w32 : S5000x2.Iotas .tc 32 [0]
  slices_S5000x2_o0_0_S1x2 : S5000x2.Slices ![0, 0] S1x2
  shapeCasts_S1x2_S1x2 : S1x2.ShapeCasts S1x2
  broadcasts_S1x2_S5000x2 : S1x2.Broadcasts S5000x2
  slices_S5000x2_o0_0_S5000x1 : S5000x2.Slices ![0, 0] S5000x1
  broadcasts_S5000x1_S5000x2 : S5000x1.Broadcasts S5000x2
  slices_S5000x2_o0_1_S5000x1 : S5000x2.Slices ![0, 1] S5000x1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2.size a ≤ S128x2.size a
  hwx0_2 : ∀ i : grid0.Coords, EltTy.bits .f32 = 32 ∨ (Rect.block (s := S128x2) S128x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x2.size a ≤ S1000000x2.size a
  hwx0_3 : ∀ i : grid0.Coords, EltTy.bits .f32 = 32 ∨ (Rect.block (s := S1000000x2) S5000x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x2.size a ≤ S1000000x2.size a
  hwx0_4 : ∀ i : grid0.Coords, EltTy.bits .f32 = 32 ∨ (Rect.block (s := S1000000x2) S5000x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S1000000x2.size a
  hwx1_0 : ∀ i : grid1.Coords, EltTy.bits .f32 = 32 ∨ (Rect.block (s := S1000000x2) S5000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S1000000x2.size a
  hwx1_1 : ∀ i : grid1.Coords, EltTy.bits .f32 = 32 ∨ (Rect.block (s := S1000000x2) S5000x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S1000000x2.size a
  hwx1_2 : ∀ i : grid1.Coords, EltTy.bits .f32 = 32 ∨ (Rect.block (s := S1000000x2) S5000x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S1000000x2.size a
  hwx1_3 : ∀ i : grid1.Coords, EltTy.bits .f32 = 32 ∨ (Rect.block (s := S1000000x2) S5000x2.size (cc1_transform_3 i) (hinb1_3 i)).WholeWords (EltTy.packing .f32)

variable [Facts₀]

def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S5000x2.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S5000x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_1) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S5000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S2x128 : Shape := ⟨2, ![2, 128]⟩
abbrev S128x2 : Shape := ⟨2, ![128, 2]⟩
abbrev S1000000x2 : Shape := ⟨2, ![1000000, 2]⟩
abbrev S_ : Shape := ⟨0, ![]⟩
abbrev S999999x2 : Shape := ⟨2, ![999999, 2]⟩
abbrev S1x2 : Shape := ⟨2, ![1, 2]⟩
abbrev S1000000x1 : Shape := ⟨2, ![1000000, 1]⟩

abbrev nBuf : Space → Nat
  | .hbm => 23
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2x128, .f32⟩
  | .hbm, ⟨2, _⟩ => ⟨S2x128, .f32⟩
  | .hbm, ⟨3, _⟩ => ⟨S128x2, .f32⟩
  | .hbm, ⟨4, _⟩ => ⟨S1000000x2, .f32⟩
  | .hbm, ⟨5, _⟩ => ⟨S_, .f32⟩
  | .hbm, ⟨6, _⟩ => ⟨S1000000x2, .f32⟩
  | .hbm, ⟨7, _⟩ => ⟨S1000000x2, .f32⟩
  | .hbm, ⟨8, _⟩ => ⟨S128x2, .f32⟩
  | .hbm, ⟨9, _⟩ => ⟨S1000000x2, .f32⟩
  | .hbm, ⟨10, _⟩ => ⟨S_, .f32⟩
  | .hbm, ⟨11, _⟩ => ⟨S1000000x2, .f32⟩
  | .hbm, ⟨12, _⟩ => ⟨S1000000x2, .f32⟩
  | .hbm, ⟨13, _⟩ => ⟨S999999x2, .f32⟩
  | .hbm, ⟨14, _⟩ => ⟨S1x2, .f32⟩
  | .hbm, ⟨15, _⟩ => ⟨S1000000x2, .f32⟩
  | .hbm, ⟨16, _⟩ => ⟨S1000000x1, .f32⟩
  | .hbm, ⟨17, _⟩ => ⟨S1000000x2, .f32⟩
  | .hbm, ⟨18, _⟩ => ⟨S1000000x2, .f32⟩
  | .hbm, ⟨19, _⟩ => ⟨S1000000x1, .f32⟩
  | .hbm, ⟨20, _⟩ => ⟨S1000000x2, .f32⟩
  | .hbm, ⟨21, _⟩ => ⟨S1000000x2, .f32⟩
  | .hbm, ⟨22, _⟩ => ⟨S1000000x2, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_cst : Ref sig .tc := ⟨.hbm, 10, rfl⟩
abbrev main_call1_v0 : Ref sig .tc := ⟨.hbm, 11, rfl⟩
abbrev main_v5 : Ref sig .tc := ⟨.hbm, 12, rfl⟩
abbrev main_call2_v0 : Ref sig .tc := ⟨.hbm, 13, rfl⟩
abbrev main_call2_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  transposes_S2x128_S128x2_1_0 : S2x128.Transposes [1, 0] S128x2
  bcast_S_S1000000x2 : S_.BroadcastsInDim S1000000x2 (![] : Fin 0 → Fin S1000000x2.rank)
  slices_S1000000x2_S999999x2_1_0 : S1000000x2.Slices ![1, 0] S999999x2
  slices_S1000000x2_S1x2_0_0 : S1000000x2.Slices ![0, 0] S1x2
  concatenates_S999999x2_S1x2_S1000000x2_d0 : Shape.Concatenates [S999999x2, S1x2] S1000000x2 0
  slices_S1000000x2_S1000000x1_0_0 : S1000000x2.Slices ![0, 0] S1000000x1
  bcast_S1000000x1_S1000000x2_0_1 : S1000000x1.BroadcastsInDim S1000000x2 (![0, 1] : Fin 2 → Fin S1000000x2.rank)
  slices_S1000000x2_S1000000x1_0_1 : S1000000x2.Slices ![0, 1] S1000000x1
  dot_S1000000x128_S128x2_S1000000x2_1_0_0_1_n_n_wf : DotDims.WF S1000000x128 S128x2 S1000000x2 [1] [0] [0] [1] [] []

variable [Facts₀]

def dot_S1000000x128_S128x2_S1000000x2_1_0_0_1_n_n : DotDims S1000000x128 S128x2 S1000000x2 where
  lhsContracting := [1]
  rhsContracting := [0]
  lhsNonContracting := [0]
  rhsNonContracting := [1]
  lhsBatch := []
  rhsBatch := []
  wf := dot_S1000000x128_S128x2_S1000000x2_1_0_0_1_n_n_wf

class Facts : Prop extends Facts₀ where

variable [Facts]
-- ==== Proof.Bits.ReluDots.lean ====
/-
  The first kernel region: over a grid of 200 points, point `t` reads rows 5000 t … 5000 t + 4999 of the matrix and
  the two transposed weight matrices (whole, fetched once), and writes two blocks of 5000 rows and 2 columns: the
  rows' inner products with the value weights and with the factor weights, each cut below at zero.

  Here: the blocks the windows hold at a point, what the body leaves in each of its two output buffers as a function
  of the three input blocks, the body's run, and the region's proof data — everything at a PARAMETER `V`, the
  contents of the core's buffers when the region is entered, and at any float instance.
-/
import proofs.«150139_j37993280701086_1_alg».proof.Proof.Gen.Kernel.Launch
import proofs.«150139_j37993280701086_1_alg».proof.Proof.Gen.Kernel.Skeleton
import proofs.«150139_j37993280701086_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.ReluDots

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or not (the
    weights are fetched at the first point only: their block index never moves), for any proof data whose array is
    `V`'s and whose body leaves the block in place. -/
theorem found_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S5000x128 := Rect.unit (s := S5000x128) ![0, 0] S5000x128.size inb_S5000x128_S5000x128_0_0
abbrev rW : Rect S128x2 := Rect.unit (s := S128x2) ![0, 0] S128x2.size inb_S128x2_S128x2_0_0
abbrev rO : Rect S5000x2 := Rect.unit (s := S5000x2) ![0, 0] S5000x2.size inb_S5000x2_S5000x2_0_0

/-! ## What the body leaves in its two output buffers -/

/-- The values' buffer after the body: its one store, of the matrix block against the transposed value weights. -/
def outV (x : Vec F S5000x128 .f32) (w : Vec F S128x2 .f32) : Vec F S5000x2 .f32 :=
  View.canon [⟨rO, k0_pay2 (View.ld x rX) (View.ld w rW)⟩]
/-- The factors' buffer after the body: its one store, of the matrix block against the transposed factor weights. -/
def outF (x : Vec F S5000x128 .f32) (w : Vec F S128x2 .f32) : Vec F S5000x2 .f32 :=
  View.canon [⟨rO, k0_pay3 (View.ld x rX) (View.ld w rW)⟩]

/-- The one store fills its buffer. -/
theorem cover (p0 : Vec F S5000x2 .f32) (y : S5000x2.Idx) :
    ∃ pc ∈ ([⟨rO, p0⟩] : List (View.Piece (Elt F) S5000x2 .f32)), y ∈ pc.1.set :=
  View.cover_of_tiled [⟨rO, p0⟩] S5000x2.size (by rfl) y

/-! ## The body's run -/

set_option maxHeartbeats 1000000 in
/-- On whole buffers, the three inputs' at contents `x`, `wg`, `wf` and the two outputs' at anything, the body runs
    to its end leaving the inputs' as they were and the outputs' at `outV x wg` and `outF x wf`. -/
theorem runs (c : Dev nD) (E : Set ℕ) (i : grid0.Coords)
    (a1 : Memref sig .tc .vmem S5000x128 .f32) (h1 : a1.IsWhole) (a2 : Memref sig .tc .vmem S128x2 .f32) (h2 : a2.IsWhole)
    (a3 : Memref sig .tc .vmem S128x2 .f32) (h3 : a3.IsWhole) (a4 : Memref sig .tc .vmem S5000x2 .f32) (h4 : a4.IsWhole)
    (a5 : Memref sig .tc .vmem S5000x2 .f32) (h5 : a5.IsWhole)
    (x : Vec F S5000x128 .f32) (wg wf : Vec F S128x2 .f32) (K : PUnit → sProp 𝕄) :
    iprop(owns (c : Thread nD τ) a1 fullShare x ∗ owns (c : Thread nD τ) a2 fullShare wg ∗ owns (c : Thread nD τ) a3 fullShare wf
        ∗ (∃ d, owns (c : Thread nD τ) a4 fullShare d) ∗ (∃ d, owns (c : Thread nD τ) a5 fullShare d)
        ∗ (iprop(owns (c : Thread nD τ) a1 fullShare x ∗ owns (c : Thread nD τ) a2 fullShare wg ∗ owns (c : Thread nD τ) a3 fullShare wf
            ∗ owns (c : Thread nD τ) a4 fullShare (outV x wg) ∗ owns (c : Thread nD τ) a5 fullShare (outF x wf)) -∗ K ⟨⟩))
      ⊢ wp frame (wpE (defs₀ (F := F)) Variants.none c none) E (cc0__vf_kernel i a1 h1 a2 h2 a3 h3 a4 h4 a5 h5) K := by
  simp only [cc0__vf_kernel_eq_skeleton]; unfold cc0__vf_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  · iexists _; isplitr
    swap; · iexact H5
    ipureintro
    exact View.read_writes_eq_canon _ _ _ (cover _)

/-! ## The region's proof data -/

/-- The arrays as the region finds them; after the body at point `t` each input's buffer still at its block and each
    output's at what the body leaves of the input blocks; the invariant the scoped rest and the generator register,
    untouched; nothing owed; every array held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outV (blk V c 0 t) (blk V c 1 t)
    | ⟨4, _⟩ => outF (blk V c 0 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = outV (blk V c 0 t) (blk V c 1 t) := by dsimp only [dat]
theorem after_4 (c : Dev nD) (t : Fin cfg0.N) : (dat V c).after 4 t = outF (blk V c 0 t) (blk V c 2 t) := by dsimp only [dat]

theorem before_0 (c : Dev nD) (t : Fin cfg0.N) (d) : (dat V c).before 0 t d = blk V c 0 t :=
  found_0 V (dat V c) (A_eq V c 0) (after_0 V c) t d
theorem before_1 (c : Dev nD) (t : Fin cfg0.N) (d) : (dat V c).before 1 t d = blk V c 1 t :=
  found_1 V (dat V c) (A_eq V c 1) (after_1 V c) t d
theorem before_2 (c : Dev nD) (t : Fin cfg0.N) (d) : (dat V c).before 2 t d = blk V c 2 t :=
  found_2 V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the body's run applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (runs c Set.univ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.ReluDots

end
-- ==== Proof.Bits.Combine.lean ====
/-
  The second kernel region: over a grid of 200 points, point `t` reads block `t` of the factors, block `t` of the
  values and block `t + 1 mod 200` of the values (two windows on ONE array), and writes block `t` of the result:
  each row's values by its first factor plus the next row's values by its second, the block's last row taking the
  first row of the block after it.

  Here: the blocks the windows hold at a point, what the body leaves in its output buffer as a function of the three
  input blocks, the body's run, and the region's proof data — at a PARAMETER `V`, the contents of the core's buffers
  when the region is entered, and at any float instance. The values' array is read through two windows, so the
  proof data hold it at the two halves of the full share, one half per window.
-/
import proofs.«150139_j37993280701086_1_alg».proof.Proof.Gen.Kernel.Launch
import proofs.«150139_j37993280701086_1_alg».proof.Proof.Gen.Kernel.Skeleton
import proofs.«150139_j37993280701086_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, for any proof data whose array is `V`'s and whose
    body leaves the block in place. -/
theorem found_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rO : Rect S5000x2 := Rect.unit (s := S5000x2) ![0, 0] S5000x2.size inb_S5000x2_S5000x2_0_0

/-! ## What the body leaves in its output buffer -/

/-- The result's buffer after the body: its one store, of the factor block, the value block and the value block after it. -/
def out (f v vn : Vec F S5000x2 .f32) : Vec F S5000x2 .f32 :=
  View.canon [⟨rO, k1_pay1 (View.ld f rO) (View.ld v rO) (View.ld vn rO)⟩]

/-- The one store fills its buffer. -/
theorem cover (p0 : Vec F S5000x2 .f32) (y : S5000x2.Idx) :
    ∃ pc ∈ ([⟨rO, p0⟩] : List (View.Piece (Elt F) S5000x2 .f32)), y ∈ pc.1.set :=
  View.cover_of_tiled [⟨rO, p0⟩] S5000x2.size (by rfl) y

/-! ## The body's run -/

set_option maxHeartbeats 1000000 in
/-- On whole buffers, the three inputs' at contents `f`, `v`, `vn` and the output's at anything, the body runs to its
    end leaving the inputs' as they were and the output's at `out f v vn`. -/
theorem runs (c : Dev nD) (E : Set ℕ) (i : grid1.Coords)
    (a1 : Memref sig .tc .vmem S5000x2 .f32) (h1 : a1.IsWhole) (a2 : Memref sig .tc .vmem S5000x2 .f32) (h2 : a2.IsWhole)
    (a3 : Memref sig .tc .vmem S5000x2 .f32) (h3 : a3.IsWhole) (a4 : Memref sig .tc .vmem S5000x2 .f32) (h4 : a4.IsWhole)
    (f v vn : Vec F S5000x2 .f32) (K : PUnit → sProp 𝕄) :
    iprop(owns (c : Thread nD τ) a1 fullShare f ∗ owns (c : Thread nD τ) a2 fullShare v ∗ owns (c : Thread nD τ) a3 fullShare vn
        ∗ (∃ d, owns (c : Thread nD τ) a4 fullShare d)
        ∗ (iprop(owns (c : Thread nD τ) a1 fullShare f ∗ owns (c : Thread nD τ) a2 fullShare v ∗ owns (c : Thread nD τ) a3 fullShare vn
            ∗ owns (c : Thread nD τ) a4 fullShare (out f v vn)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The region's proof data -/

/-- The arrays as the region finds them; after the body at point `t` each input's buffer still at its block and the
    output's at what the body leaves of the input blocks; the invariant the scoped rest and the generator register,
    untouched; nothing owed. The factors' array is held whole; the values' array, read through windows 1 and 2, at the
    left half of the full share by the one and at the right half by the other. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = out (blk V c 0 t) (blk V c 1 t) (blk V c 2 t) := by dsimp only [dat]

theorem before_0 (c : Dev nD) (t : Fin cfg1.N) (d) : (dat V c).before 0 t d = blk V c 0 t :=
  found_0 V (dat V c) (A_eq V c 0) (after_0 V c) t d
theorem before_1 (c : Dev nD) (t : Fin cfg1.N) (d) : (dat V c).before 1 t d = blk V c 1 t :=
  found_1 V (dat V c) (A_eq V c 1) (after_1 V c) t d
theorem before_2 (c : Dev nD) (t : Fin cfg1.N) (d) : (dat V c).before 2 t d = blk V c 2 t :=
  found_2 V (dat V c) (A_eq V c 2) (after_2 V c) t d

/-- The shares the arrays are held at, window by window. -/
theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the body's run applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (runs c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Combine

end
-- ==== Proof.Bits.Whole.lean ====
/-
  The whole run of the program on its TensorCore: two host transposes, the first kernel region, the second kernel
  region. The contents of the core's unscoped buffers are followed from the launch to the return — after the
  transposes, after the first region (its two result arrays at what its write-backs leave), after the second (the
  program's result array at what its write-backs leave) — and every weakly fair execution ends with every unscoped
  buffer at the last of these. The frame and the result's value are both read off that.

  The second region reads the values' array through two windows, so at its entry that array's full share is cut in
  two halves, one per window, and at its exit the two halves, still holding the entry contents, are joined again.
-/
import proofs.«150139_j37993280701086_1_alg».proof.Proof.Bits.ReluDots
import proofs.«150139_j37993280701086_1_alg».proof.Proof.Bits.Combine

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the two transposes (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (ReluDots.dat (V1 m) c).arrAt w cfg0.N
theorem W2_arr (c : Dev nD) (w : Fin cfg0.W) :
    W2 m c (Proc.devRef .tc (Pipeline.arrRef spec0 w)) = (ReluDots.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (ReluDots.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second region's exit: the result array at what the pipeline leaves, every other buffer as entered. -/
def W3 (c : Dev nD) : Valuation τ sig (Elt F) :=
  Function.update (W2 m c) main_v3 ((Combine.dat (V2 m) c).arrAt 3 cfg1.N)
abbrev V3 : (c : Dev nD) → (b : Ref sig .tc) → Buf (Elt F) ((c : Thread nD τ).loc b) := fun c b => W3 m c b

theorem W3_result (c : Dev nD) : W3 m c (Proc.devRef .tc main_v3) = (Combine.dat (V2 m) c).arrAt 3 cfg1.N := by
  unfold W3; exact Function.update_self ..
theorem W3_of_ne (c : Dev nD) (b : Ref sig .tc) (hb : b ≠ main_v3) : W3 m c (Proc.devRef .tc b) = W2 m c (Proc.devRef .tc b) := by
  unfold W3; exact Function.update_of_ne (StableHlo.devRef_ne_of_ne hb) ..

/-! ## The proof data family and what rides along -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => ReluDots.dat (V1 m) c
  | ⟨1, _⟩ => fun c => Combine.dat (V2 m) c
abbrev 𝒱₀ : Variants := Variants.none
abbrev L : GSem nD τ sig → Finset Unit := fun _ => ∅
abbrev lv : GSem nD τ sig → Unit → ℕ := fun _ _ => 0
/-- Beside the buffers through every segment: the generator register at some state and the core's dues, at nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The two transposes as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The second region's arrays: the values' array shared by two windows -/

section Shared

variable (V : (c : Dev nD) → (b : Ref sig .tc) → Buf (Elt F) ((c : Thread nD τ).loc b))

/-- The second region's arrays, window by window: the factors' array whole, the values' array at the left half of the
    full share and again at the right half, the result's array whole. -/
theorem arrays_eq (c : Dev nD) (G : (w : Fin cfg1.W) → Buf (Elt F) ((cfg1.win w).arr.view.loc (c.tc : Thread nD τ))) :
    ((Combine.dat V c).arrays G : sProp 𝕄)
      = iprop((((c : Thread nD τ).loc main_v2_1) ↦{fullShare} G 0) ∗ (((c : Thread nD τ).loc main_v2_0) ↦{fullShare.left} G 1)
          ∗ (((c : Thread nD τ).loc main_v2_0) ↦{fullShare.right} G 2) ∗ (((c : Thread nD τ).loc main_v3) ↦{fullShare} G 3)) := by
  unfold Dat.arrays
  rw [bigSep_W1, (arr_whole1 0).set_eq_univ, (arr_whole1 1).set_eq_univ, (arr_whole1 3).set_eq_univ]
  rfl

/-- The three buffers behind the second region's arrays, one by one. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2_1) ↦{fullShare} Vc main_v2_1) ∗ (((c : Thread nD τ).loc main_v2_0) ↦{fullShare} Vc main_v2_0)
          ∗ (((c : Thread nD τ).loc main_v3) ↦{fullShare} Vc main_v3)) := by
  unfold Pipeline.arrBufs
  exact bigSep_eq_bigSepL_of_eq [main_v2_1, main_v2_0, main_v3] (by decide) (by decide) _

/-- The core's unscoped buffers are those three and the rest. -/
theorem bufs_split (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) :=
  Pipeline.unscopedBufs_split₀ cfgs (1 : Fin 2) winFacts₀1.arr_unscoped c Vc

/-- ENTRY: the core's unscoped buffers at `V` give the region's arrays at their entry contents — the values' array
    cut into its two half shares — and the rest. -/
theorem arrays_of_bufs (c : Dev nD) :
    (unscopedBufs c (V c) : sProp 𝕄)
      ⊢ iprop((Combine.dat V c).arrays ((Combine.dat V c).arrAt · 0) ∗ Pipeline.unscopedRest spec1 c (V c)) := by
  rw [bufs_split, arrBufs_eq, arrays_eq]
  iintro ⟨⟨Hf, Hv, Ho⟩, Hrest⟩
  ihave Hv' := (pointsTo_share (PosShare.mem_left_op_right fullShare)).1 $$ Hv
  icases Hv' with ⟨Hl, Hr⟩
  isplitr [Hrest]
  · isplitl [Hf]; · iexact Hf
    isplitl [Hl]; · iexact Hl
    isplitl [Hr]; · iexact Hr
    iexact Ho
  iexact Hrest

/-- EXIT: the region's arrays at contents `G` — the two halves of the values' array at one contents — and the rest at
    `V` are the core's unscoped buffers at any `V'` that has the arrays at `G` and agrees with `V` off them. -/
theorem bufs_of_arrays (c : Dev nD) (V' : (b : Ref sig .tc) → Buf (Elt F) ((c : Thread nD τ).loc b))
    (G : (w : Fin cfg1.W) → Buf (Elt F) ((cfg1.win w).arr.view.loc (c.tc : Thread nD τ)))
    (h0 : G 0 = V' main_v2_1) (h1 : G 1 = V' main_v2_0) (h2 : G 2 = V' main_v2_0) (h3 : G 3 = V' main_v3)
    (hrest : ∀ b, b ∉ Finset.univ.image (Pipeline.arrRef spec1) → V' b = V c b) :
    iprop((Combine.dat V c).arrays G ∗ Pipeline.unscopedRest spec1 c (V c)) ⊢ (unscopedBufs c V' : sProp 𝕄) := by
  rw [bufs_split, arrBufs_eq, arrays_eq, h0, h1, h2, h3]
  refine sep_mono ?_ (Entails.of_eq ?_)
  · iintro ⟨Hf, Hl, Hr, Ho⟩
    ihave Hv := (pointsTo_share (PosShare.mem_left_op_right fullShare)).2 $$ [Hl Hr]
    · isplitl [Hl]; · iexact Hl
      iexact Hr
    isplitl [Hf]; · iexact Hf
    isplitl [Hv]; · iexact Hv
    iexact Ho
  · unfold Pipeline.unscopedRest
    exact bigSep_congr fun b hb => by rw [hrest b (Finset.mem_sdiff.mp hb).2]

end Shared

/-! ## The regions as segments -/

set_option backward.isDefEq.respectTransparency.types false in
/-- The first region: entered from every unscoped buffer at `W1`, left at `W2`. Its arrays are distinct buffers, split
    out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (ReluDots.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the second region's exit the factors' and the values' arrays hold what they held at its entry (inputs are never
    written), the result array what the write-backs leave, every other buffer what it held. -/
theorem exit_0 (c : Dev nD) : (Combine.dat (V2 m) c).arrAt 0 cfg1.N = V3 m c main_v2_1 :=
  ((Combine.dat (V2 m) c).arrAt_in 0 rfl _).trans ((Combine.A_eq (V2 m) c 0).trans (W3_of_ne m c main_v2_1 (by decide)).symm)
theorem exit_1 (c : Dev nD) : (Combine.dat (V2 m) c).arrAt 1 cfg1.N = V3 m c main_v2_0 :=
  ((Combine.dat (V2 m) c).arrAt_in 1 rfl _).trans ((Combine.A_eq (V2 m) c 1).trans (W3_of_ne m c main_v2_0 (by decide)).symm)
theorem exit_2 (c : Dev nD) : (Combine.dat (V2 m) c).arrAt 2 cfg1.N = V3 m c main_v2_0 :=
  ((Combine.dat (V2 m) c).arrAt_in 2 rfl _).trans ((Combine.A_eq (V2 m) c 2).trans (W3_of_ne m c main_v2_0 (by decide)).symm)
theorem exit_3 (c : Dev nD) : (Combine.dat (V2 m) c).arrAt 3 cfg1.N = V3 m c main_v3 := (W3_result m c).symm
theorem exit_rest (c : Dev nD) : ∀ b, b ∉ Finset.univ.image (Pipeline.arrRef spec1) → V3 m c b = V2 m c b :=
  fun b hb => W3_of_ne m c b fun e => hb (Finset.mem_image.mpr ⟨3, Finset.mem_univ _, e.symm⟩)

set_option backward.isDefEq.respectTransparency.types false in
/-- The second region: entered from every unscoped buffer at `W2`, left at `W3`. The values' array, read through two
    windows, is cut into its two half shares at entry and joined again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Combine.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_bufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arrays (V2 m) c (V3 m c) ((Combine.dat (V2 m) c).arrAt · cfg1.N)
      (exit_0 m c) (exit_1 m c) (exit_2 m c) (exit_3 m c) (exit_rest m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN. From any memory with zero counters, every weakly fair execution of the program on the TensorCore
    terminates, nothing faulting, and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Whole

end
-- ==== Proof.Bits.Ends.lean ====
/-
  What the whole run leaves, read off the last boundary's contents: each of the three argument arrays ends as
  launched — no transpose writes one, the first region only reads the matrix, and neither region's result arrays is an
  argument — and the program's result array ends at what the second region's write-backs leave.
-/
import proofs.«150139_j37993280701086_1_alg».proof.Proof.Bits.Whole

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The transposes write neither an argument nor each other's operand -/

/-- A buffer the two transposes do not write holds after them what it held at launch. -/
theorem W1_of (c : Dev nD) (b : Ref sig .tc) (h0 : b ≠ main_v0) (h1 : b ≠ main_v1) :
    W1 m c (Proc.devRef .tc b) = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) :=
        (W2_arr m c 0).trans (((ReluDots.dat (V1 m) c).arrAt_in 0 rfl _).trans (ReluDots.A_eq (V1 m) c 0))
    _ = m ((c : Thread nD τ).loc main_arg0) := W1_of m c main_arg0 (by decide) (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide) (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide) (by decide)

/-! ## The frame, and the run with the result named -/

/-- THE FRAME, at any float instance: from any memory with zero counters every weakly fair execution terminates, nothing
    faulting, and every final memory holds the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

/-- The same run with the result array named: it ends at what the second region's 200 write-backs leave. -/
theorem run_result : θ_run defs (onTc (τ := τ) (main (F := F))) ⟨m, fun _ => 0, ρ⟩ (fun r => ∀ c : Dev nD,
      r.2.mem ((c.tc : Thread nD τ).loc main_v3) = (Combine.dat (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

/-! ## What the second region is entered from -/

/-- At the second region's entry the values' array holds what the first region's write-backs through its fourth
    window leave, the factors' array what those through its fifth leave. -/
theorem V2_values (c : Dev nD) : V2 m c main_v2_0 = (ReluDots.dat (V1 m) c).arrAt 3 cfg0.N := W2_arr m c 3
theorem V2_factors (c : Dev nD) : V2 m c main_v2_1 = (ReluDots.dat (V1 m) c).arrAt 4 cfg0.N := W2_arr m c 4

/-- At the first region's entry the matrix is as launched. -/
theorem V1_matrix (c : Dev nD) : V1 m c main_arg0 = m ((c : Thread nD τ).loc main_arg0) :=
  W1_of m c main_arg0 (by decide) (by decide)

end Cert.Kernel.Whole

end
-- ==== Proof.Ideal.ReluDots.lean ====
/-
  The first kernel region: over a grid of 200 points, point `t` reads rows 5000 t … 5000 t + 4999 of the matrix and
  the two transposed weight matrices (whole, fetched once), and writes two blocks of 5000 rows and 2 columns: the
  rows' inner products with the value weights and with the factor weights, each cut below at zero.

  Here: the blocks the windows hold at a point, what the body leaves in each of its two output buffers as a function
  of the three input blocks, the body's run, and the region's proof data — everything at a PARAMETER `V`, the
  contents of the core's buffers when the region is entered, and at any float instance.
-/
import proofs.«150139_j37993280701086_1_alg».proof.Proof.Gen.KernelIdeal.Launch
import proofs.«150139_j37993280701086_1_alg».proof.Proof.Gen.KernelIdeal.Skeleton
import proofs.«150139_j37993280701086_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ReluDots

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or not (the
    weights are fetched at the first point only: their block index never moves), for any proof data whose array is
    `V`'s and whose body leaves the block in place. -/
theorem found_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S5000x128 := Rect.unit (s := S5000x128) ![0, 0] S5000x128.size inb_S5000x128_S5000x128_0_0
abbrev rW : Rect S128x2 := Rect.unit (s := S128x2) ![0, 0] S128x2.size inb_S128x2_S128x2_0_0
abbrev rO : Rect S5000x2 := Rect.unit (s := S5000x2) ![0, 0] S5000x2.size inb_S5000x2_S5000x2_0_0

/-! ## What the body leaves in its two output buffers -/

/-- The values' buffer after the body: its one store, of the matrix block against the transposed value weights. -/
def outV (x : Vec F S5000x128 .f32) (w : Vec F S128x2 .f32) : Vec F S5000x2 .f32 :=
  View.canon [⟨rO, k0_pay2 (View.ld x rX) (View.ld w rW)⟩]
/-- The factors' buffer after the body: its one store, of the matrix block against the transposed factor weights. -/
def outF (x : Vec F S5000x128 .f32) (w : Vec F S128x2 .f32) : Vec F S5000x2 .f32 :=
  View.canon [⟨rO, k0_pay3 (View.ld x rX) (View.ld w rW)⟩]

/-- The one store fills its buffer. -/
theorem cover (p0 : Vec F S5000x2 .f32) (y : S5000x2.Idx) :
    ∃ pc ∈ ([⟨rO, p0⟩] : List (View.Piece (Elt F) S5000x2 .f32)), y ∈ pc.1.set :=
  View.cover_of_tiled [⟨rO, p0⟩] S5000x2.size (by rfl) y

/-! ## The body's run -/

set_option maxHeartbeats 1000000 in
/-- On whole buffers, the three inputs' at contents `x`, `wg`, `wf` and the two outputs' at anything, the body runs
    to its end leaving the inputs' as they were and the outputs' at `outV x wg` and `outF x wf`. -/
theorem runs (c : Dev nD) (E : Set ℕ) (i : grid0.Coords)
    (a1 : Memref sig .tc .vmem S5000x128 .f32) (h1 : a1.IsWhole) (a2 : Memref sig .tc .vmem S128x2 .f32) (h2 : a2.IsWhole)
    (a3 : Memref sig .tc .vmem S128x2 .f32) (h3 : a3.IsWhole) (a4 : Memref sig .tc .vmem S5000x2 .f32) (h4 : a4.IsWhole)
    (a5 : Memref sig .tc .vmem S5000x2 .f32) (h5 : a5.IsWhole)
    (x : Vec F S5000x128 .f32) (wg wf : Vec F S128x2 .f32) (K : PUnit → sProp 𝕄) :
    iprop(owns (c : Thread nD τ) a1 fullShare x ∗ owns (c : Thread nD τ) a2 fullShare wg ∗ owns (c : Thread nD τ) a3 fullShare wf
        ∗ (∃ d, owns (c : Thread nD τ) a4 fullShare d) ∗ (∃ d, owns (c : Thread nD τ) a5 fullShare d)
        ∗ (iprop(owns (c : Thread nD τ) a1 fullShare x ∗ owns (c : Thread nD τ) a2 fullShare wg ∗ owns (c : Thread nD τ) a3 fullShare wf
            ∗ owns (c : Thread nD τ) a4 fullShare (outV x wg) ∗ owns (c : Thread nD τ) a5 fullShare (outF x wf)) -∗ K ⟨⟩))
      ⊢ wp frame (wpE (defs₀ (F := F)) Variants.none c none) E (cc0__vf_kernel i a1 h1 a2 h2 a3 h3 a4 h4 a5 h5) K := by
  simp only [cc0__vf_kernel_eq_skeleton]; unfold cc0__vf_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  · iexists _; isplitr
    swap; · iexact H5
    ipureintro
    exact View.read_writes_eq_canon _ _ _ (cover _)

/-! ## The region's proof data -/

/-- The arrays as the region finds them; after the body at point `t` each input's buffer still at its block and each
    output's at what the body leaves of the input blocks; the invariant the scoped rest and the generator register,
    untouched; nothing owed; every array held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outV (blk V c 0 t) (blk V c 1 t)
    | ⟨4, _⟩ => outF (blk V c 0 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = outV (blk V c 0 t) (blk V c 1 t) := by dsimp only [dat]
theorem after_4 (c : Dev nD) (t : Fin cfg0.N) : (dat V c).after 4 t = outF (blk V c 0 t) (blk V c 2 t) := by dsimp only [dat]

theorem before_0 (c : Dev nD) (t : Fin cfg0.N) (d) : (dat V c).before 0 t d = blk V c 0 t :=
  found_0 V (dat V c) (A_eq V c 0) (after_0 V c) t d
theorem before_1 (c : Dev nD) (t : Fin cfg0.N) (d) : (dat V c).before 1 t d = blk V c 1 t :=
  found_1 V (dat V c) (A_eq V c 1) (after_1 V c) t d
theorem before_2 (c : Dev nD) (t : Fin cfg0.N) (d) : (dat V c).before 2 t d = blk V c 2 t :=
  found_2 V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the body's run applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (runs c Set.univ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.ReluDots

end
-- ==== Proof.Ideal.Combine.lean ====
/-
  The second kernel region: over a grid of 200 points, point `t` reads block `t` of the factors, block `t` of the
  values and block `t + 1 mod 200` of the values (two windows on ONE array), and writes block `t` of the result:
  each row's values by its first factor plus the next row's values by its second, the block's last row taking the
  first row of the block after it.

  Here: the blocks the windows hold at a point, what the body leaves in its output buffer as a function of the three
  input blocks, the body's run, and the region's proof data — at a PARAMETER `V`, the contents of the core's buffers
  when the region is entered, and at any float instance. The values' array is read through two windows, so the
  proof data hold it at the two halves of the full share, one half per window.
-/
import proofs.«150139_j37993280701086_1_alg».proof.Proof.Gen.KernelIdeal.Launch
import proofs.«150139_j37993280701086_1_alg».proof.Proof.Gen.KernelIdeal.Skeleton
import proofs.«150139_j37993280701086_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, for any proof data whose array is `V`'s and whose
    body leaves the block in place. -/
theorem found_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rO : Rect S5000x2 := Rect.unit (s := S5000x2) ![0, 0] S5000x2.size inb_S5000x2_S5000x2_0_0

/-! ## What the body leaves in its output buffer -/

/-- The result's buffer after the body: its one store, of the factor block, the value block and the value block after it. -/
def out (f v vn : Vec F S5000x2 .f32) : Vec F S5000x2 .f32 :=
  View.canon [⟨rO, k1_pay1 (View.ld f rO) (View.ld v rO) (View.ld vn rO)⟩]

/-- The one store fills its buffer. -/
theorem cover (p0 : Vec F S5000x2 .f32) (y : S5000x2.Idx) :
    ∃ pc ∈ ([⟨rO, p0⟩] : List (View.Piece (Elt F) S5000x2 .f32)), y ∈ pc.1.set :=
  View.cover_of_tiled [⟨rO, p0⟩] S5000x2.size (by rfl) y

/-! ## The body's run -/

set_option maxHeartbeats 1000000 in
/-- On whole buffers, the three inputs' at contents `f`, `v`, `vn` and the output's at anything, the body runs to its
    end leaving the inputs' as they were and the output's at `out f v vn`. -/
theorem runs (c : Dev nD) (E : Set ℕ) (i : grid1.Coords)
    (a1 : Memref sig .tc .vmem S5000x2 .f32) (h1 : a1.IsWhole) (a2 : Memref sig .tc .vmem S5000x2 .f32) (h2 : a2.IsWhole)
    (a3 : Memref sig .tc .vmem S5000x2 .f32) (h3 : a3.IsWhole) (a4 : Memref sig .tc .vmem S5000x2 .f32) (h4 : a4.IsWhole)
    (f v vn : Vec F S5000x2 .f32) (K : PUnit → sProp 𝕄) :
    iprop(owns (c : Thread nD τ) a1 fullShare f ∗ owns (c : Thread nD τ) a2 fullShare v ∗ owns (c : Thread nD τ) a3 fullShare vn
        ∗ (∃ d, owns (c : Thread nD τ) a4 fullShare d)
        ∗ (iprop(owns (c : Thread nD τ) a1 fullShare f ∗ owns (c : Thread nD τ) a2 fullShare v ∗ owns (c : Thread nD τ) a3 fullShare vn
            ∗ owns (c : Thread nD τ) a4 fullShare (out f v vn)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The region's proof data -/

/-- The arrays as the region finds them; after the body at point `t` each input's buffer still at its block and the
    output's at what the body leaves of the input blocks; the invariant the scoped rest and the generator register,
    untouched; nothing owed. The factors' array is held whole; the values' array, read through windows 1 and 2, at the
    left half of the full share by the one and at the right half by the other. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = out (blk V c 0 t) (blk V c 1 t) (blk V c 2 t) := by dsimp only [dat]

theorem before_0 (c : Dev nD) (t : Fin cfg1.N) (d) : (dat V c).before 0 t d = blk V c 0 t :=
  found_0 V (dat V c) (A_eq V c 0) (after_0 V c) t d
theorem before_1 (c : Dev nD) (t : Fin cfg1.N) (d) : (dat V c).before 1 t d = blk V c 1 t :=
  found_1 V (dat V c) (A_eq V c 1) (after_1 V c) t d
theorem before_2 (c : Dev nD) (t : Fin cfg1.N) (d) : (dat V c).before 2 t d = blk V c 2 t :=
  found_2 V (dat V c) (A_eq V c 2) (after_2 V c) t d

/-- The shares the arrays are held at, window by window. -/
theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the body's run applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (runs c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Combine

end
-- ==== Proof.Ideal.Whole.lean ====
/-
  The whole run of the program on its TensorCore: two host transposes, the first kernel region, the second kernel
  region. The contents of the core's unscoped buffers are followed from the launch to the return — after the
  transposes, after the first region (its two result arrays at what its write-backs leave), after the second (the
  program's result array at what its write-backs leave) — and every weakly fair execution ends with every unscoped
  buffer at the last of these. The frame and the result's value are both read off that.

  The second region reads the values' array through two windows, so at its entry that array's full share is cut in
  two halves, one per window, and at its exit the two halves, still holding the entry contents, are joined again.
-/
import proofs.«150139_j37993280701086_1_alg».proof.Proof.Ideal.ReluDots
import proofs.«150139_j37993280701086_1_alg».proof.Proof.Ideal.Combine

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the two transposes (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (ReluDots.dat (V1 m) c).arrAt w cfg0.N
theorem W2_arr (c : Dev nD) (w : Fin cfg0.W) :
    W2 m c (Proc.devRef .tc (Pipeline.arrRef spec0 w)) = (ReluDots.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (ReluDots.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second region's exit: the result array at what the pipeline leaves, every other buffer as entered. -/
def W3 (c : Dev nD) : Valuation τ sig (Elt F) :=
  Function.update (W2 m c) main_v3 ((Combine.dat (V2 m) c).arrAt 3 cfg1.N)
abbrev V3 : (c : Dev nD) → (b : Ref sig .tc) → Buf (Elt F) ((c : Thread nD τ).loc b) := fun c b => W3 m c b

theorem W3_result (c : Dev nD) : W3 m c (Proc.devRef .tc main_v3) = (Combine.dat (V2 m) c).arrAt 3 cfg1.N := by
  unfold W3; exact Function.update_self ..
theorem W3_of_ne (c : Dev nD) (b : Ref sig .tc) (hb : b ≠ main_v3) : W3 m c (Proc.devRef .tc b) = W2 m c (Proc.devRef .tc b) := by
  unfold W3; exact Function.update_of_ne (StableHlo.devRef_ne_of_ne hb) ..

/-! ## The proof data family and what rides along -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => ReluDots.dat (V1 m) c
  | ⟨1, _⟩ => fun c => Combine.dat (V2 m) c
abbrev 𝒱₀ : Variants := Variants.none
abbrev L : GSem nD τ sig → Finset Unit := fun _ => ∅
abbrev lv : GSem nD τ sig → Unit → ℕ := fun _ _ => 0
/-- Beside the buffers through every segment: the generator register at some state and the core's dues, at nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The two transposes as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The second region's arrays: the values' array shared by two windows -/

section Shared

variable (V : (c : Dev nD) → (b : Ref sig .tc) → Buf (Elt F) ((c : Thread nD τ).loc b))

/-- The second region's arrays, window by window: the factors' array whole, the values' array at the left half of the
    full share and again at the right half, the result's array whole. -/
theorem arrays_eq (c : Dev nD) (G : (w : Fin cfg1.W) → Buf (Elt F) ((cfg1.win w).arr.view.loc (c.tc : Thread nD τ))) :
    ((Combine.dat V c).arrays G : sProp 𝕄)
      = iprop((((c : Thread nD τ).loc main_v2_1) ↦{fullShare} G 0) ∗ (((c : Thread nD τ).loc main_v2_0) ↦{fullShare.left} G 1)
          ∗ (((c : Thread nD τ).loc main_v2_0) ↦{fullShare.right} G 2) ∗ (((c : Thread nD τ).loc main_v3) ↦{fullShare} G 3)) := by
  unfold Dat.arrays
  rw [bigSep_W1, (arr_whole1 0).set_eq_univ, (arr_whole1 1).set_eq_univ, (arr_whole1 3).set_eq_univ]
  rfl

/-- The three buffers behind the second region's arrays, one by one. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2_1) ↦{fullShare} Vc main_v2_1) ∗ (((c : Thread nD τ).loc main_v2_0) ↦{fullShare} Vc main_v2_0)
          ∗ (((c : Thread nD τ).loc main_v3) ↦{fullShare} Vc main_v3)) := by
  unfold Pipeline.arrBufs
  exact bigSep_eq_bigSepL_of_eq [main_v2_1, main_v2_0, main_v3] (by decide) (by decide) _

/-- The core's unscoped buffers are those three and the rest. -/
theorem bufs_split (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) :=
  Pipeline.unscopedBufs_split₀ cfgs (1 : Fin 2) winFacts₀1.arr_unscoped c Vc

/-- ENTRY: the core's unscoped buffers at `V` give the region's arrays at their entry contents — the values' array
    cut into its two half shares — and the rest. -/
theorem arrays_of_bufs (c : Dev nD) :
    (unscopedBufs c (V c) : sProp 𝕄)
      ⊢ iprop((Combine.dat V c).arrays ((Combine.dat V c).arrAt · 0) ∗ Pipeline.unscopedRest spec1 c (V c)) := by
  rw [bufs_split, arrBufs_eq, arrays_eq]
  iintro ⟨⟨Hf, Hv, Ho⟩, Hrest⟩
  ihave Hv' := (pointsTo_share (PosShare.mem_left_op_right fullShare)).1 $$ Hv
  icases Hv' with ⟨Hl, Hr⟩
  isplitr [Hrest]
  · isplitl [Hf]; · iexact Hf
    isplitl [Hl]; · iexact Hl
    isplitl [Hr]; · iexact Hr
    iexact Ho
  iexact Hrest

/-- EXIT: the region's arrays at contents `G` — the two halves of the values' array at one contents — and the rest at
    `V` are the core's unscoped buffers at any `V'` that has the arrays at `G` and agrees with `V` off them. -/
theorem bufs_of_arrays (c : Dev nD) (V' : (b : Ref sig .tc) → Buf (Elt F) ((c : Thread nD τ).loc b))
    (G : (w : Fin cfg1.W) → Buf (Elt F) ((cfg1.win w).arr.view.loc (c.tc : Thread nD τ)))
    (h0 : G 0 = V' main_v2_1) (h1 : G 1 = V' main_v2_0) (h2 : G 2 = V' main_v2_0) (h3 : G 3 = V' main_v3)
    (hrest : ∀ b, b ∉ Finset.univ.image (Pipeline.arrRef spec1) → V' b = V c b) :
    iprop((Combine.dat V c).arrays G ∗ Pipeline.unscopedRest spec1 c (V c)) ⊢ (unscopedBufs c V' : sProp 𝕄) := by
  rw [bufs_split, arrBufs_eq, arrays_eq, h0, h1, h2, h3]
  refine sep_mono ?_ (Entails.of_eq ?_)
  · iintro ⟨Hf, Hl, Hr, Ho⟩
    ihave Hv := (pointsTo_share (PosShare.mem_left_op_right fullShare)).2 $$ [Hl Hr]
    · isplitl [Hl]; · iexact Hl
      iexact Hr
    isplitl [Hf]; · iexact Hf
    isplitl [Hv]; · iexact Hv
    iexact Ho
  · unfold Pipeline.unscopedRest
    exact bigSep_congr fun b hb => by rw [hrest b (Finset.mem_sdiff.mp hb).2]

end Shared

/-! ## The regions as segments -/

set_option backward.isDefEq.respectTransparency.types false in
/-- The first region: entered from every unscoped buffer at `W1`, left at `W2`. Its arrays are distinct buffers, split
    out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (ReluDots.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the second region's exit the factors' and the values' arrays hold what they held at its entry (inputs are never
    written), the result array what the write-backs leave, every other buffer what it held. -/
theorem exit_0 (c : Dev nD) : (Combine.dat (V2 m) c).arrAt 0 cfg1.N = V3 m c main_v2_1 :=
  ((Combine.dat (V2 m) c).arrAt_in 0 rfl _).trans ((Combine.A_eq (V2 m) c 0).trans (W3_of_ne m c main_v2_1 (by decide)).symm)
theorem exit_1 (c : Dev nD) : (Combine.dat (V2 m) c).arrAt 1 cfg1.N = V3 m c main_v2_0 :=
  ((Combine.dat (V2 m) c).arrAt_in 1 rfl _).trans ((Combine.A_eq (V2 m) c 1).trans (W3_of_ne m c main_v2_0 (by decide)).symm)
theorem exit_2 (c : Dev nD) : (Combine.dat (V2 m) c).arrAt 2 cfg1.N = V3 m c main_v2_0 :=
  ((Combine.dat (V2 m) c).arrAt_in 2 rfl _).trans ((Combine.A_eq (V2 m) c 2).trans (W3_of_ne m c main_v2_0 (by decide)).symm)
theorem exit_3 (c : Dev nD) : (Combine.dat (V2 m) c).arrAt 3 cfg1.N = V3 m c main_v3 := (W3_result m c).symm
theorem exit_rest (c : Dev nD) : ∀ b, b ∉ Finset.univ.image (Pipeline.arrRef spec1) → V3 m c b = V2 m c b :=
  fun b hb => W3_of_ne m c b fun e => hb (Finset.mem_image.mpr ⟨3, Finset.mem_univ _, e.symm⟩)

set_option backward.isDefEq.respectTransparency.types false in
/-- The second region: entered from every unscoped buffer at `W2`, left at `W3`. The values' array, read through two
    windows, is cut into its two half shares at entry and joined again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Combine.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_bufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arrays (V2 m) c (V3 m c) ((Combine.dat (V2 m) c).arrAt · cfg1.N)
      (exit_0 m c) (exit_1 m c) (exit_2 m c) (exit_3 m c) (exit_rest m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN. From any memory with zero counters, every weakly fair execution of the program on the TensorCore
    terminates, nothing faulting, and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Whole

end
-- ==== Proof.Ideal.Ends.lean ====
/-
  What the whole run leaves, read off the last boundary's contents: each of the three argument arrays ends as
  launched — no transpose writes one, the first region only reads the matrix, and neither region's result arrays is an
  argument — and the program's result array ends at what the second region's write-backs leave.
-/
import proofs.«150139_j37993280701086_1_alg».proof.Proof.Ideal.Whole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The transposes write neither an argument nor each other's operand -/

/-- A buffer the two transposes do not write holds after them what it held at launch. -/
theorem W1_of (c : Dev nD) (b : Ref sig .tc) (h0 : b ≠ main_v0) (h1 : b ≠ main_v1) :
    W1 m c (Proc.devRef .tc b) = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) :=
        (W2_arr m c 0).trans (((ReluDots.dat (V1 m) c).arrAt_in 0 rfl _).trans (ReluDots.A_eq (V1 m) c 0))
    _ = m ((c : Thread nD τ).loc main_arg0) := W1_of m c main_arg0 (by decide) (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide) (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide) (by decide)

/-! ## The frame, and the run with the result named -/

/-- THE FRAME, at any float instance: from any memory with zero counters every weakly fair execution terminates, nothing
    faulting, and every final memory holds the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

/-- The same run with the result array named: it ends at what the second region's 200 write-backs leave. -/
theorem run_result : θ_run defs (onTc (τ := τ) (main (F := F))) ⟨m, fun _ => 0, ρ⟩ (fun r => ∀ c : Dev nD,
      r.2.mem ((c.tc : Thread nD τ).loc main_v3) = (Combine.dat (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

/-! ## What the second region is entered from -/

/-- At the second region's entry the values' array holds what the first region's write-backs through its fourth
    window leave, the factors' array what those through its fifth leave. -/
theorem V2_values (c : Dev nD) : V2 m c main_v2_0 = (ReluDots.dat (V1 m) c).arrAt 3 cfg0.N := W2_arr m c 3
theorem V2_factors (c : Dev nD) : V2 m c main_v2_1 = (ReluDots.dat (V1 m) c).arrAt 4 cfg0.N := W2_arr m c 4

/-- At the first region's entry the matrix is as launched. -/
theorem V1_matrix (c : Dev nD) : V1 m c main_arg0 = m ((c : Thread nD τ).loc main_arg0) :=
  W1_of m c main_arg0 (by decide) (by decide)

end Cert.KernelIdeal.Whole

end
-- ==== Proof.Ideal.Payloads.lean ====
/-
  The two kernels' stored values read at one index of the block, over the extended reals.
-/
import proofs.«150139_j37993280701086_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

namespace Cert.KernelIdeal.Payloads

open Cert.KernelIdeal Cert.KernelIdeal.Gen Idealize.ShloMosaic Idealize.ShloMosaic.ValueIdx

/-! ## The product's operand indices, axis by axis -/

/-- The left operand's row is the result's row. -/
theorem lhs_dot_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
/-- The left operand's column is the contracted position. -/
theorem lhs_dot_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
/-- The right operand's row is the contracted position. -/
theorem rhs_dot_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
/-- The right operand's column is the result's column. -/
theorem rhs_dot_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The product into a zero accumulator, read at row `r`, column `j`: the row of the left operand against the column
    of the right one, summed over the 128 contracted positions. -/
theorem matmul_at {φ₁ φ₂ : FTy} (a : FVec Ideal S5000x128 φ₁) (b : FVec Ideal S128x2 φ₂) (r : Fin 5000) (j : Fin 2) :
    matmul dot_S5000x128_S128x2_S5000x2_1_0_0_1_n_n none a b (constant (F := Ideal) S5000x2 .f32 0x00000000#32) (ix2 r j)
      = ∑ k : Fin 128, a (ix2 r k) * b (ix2 k j) := by
  simp only [matmul]
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 r j) ((contrEquiv1 dot_S5000x128_S128x2_S5000x2_1_0_0_1_n_n 128 rfl rfl).symm k) = ix2 r k := funext fun c => Fin.ext (by
    match c with
    | ⟨0, _⟩ => exact lhs_dot_0 _ _
    | ⟨1, _⟩ => exact (lhs_dot_1 _ _).trans hk)
  have er : dot_S5000x128_S128x2_S5000x2_1_0_0_1_n_n.rhsIdx (ix2 r j) ((contrEquiv1 dot_S5000x128_S128x2_S5000x2_1_0_0_1_n_n 128 rfl rfl).symm k) = ix2 k j := funext fun c => Fin.ext (by
    match c with
    | ⟨0, _⟩ => exact (rhs_dot_0 _ _).trans hk
    | ⟨1, _⟩ => exact rhs_dot_1 _ _)
  rw [el, er]

/-- The first kernel's stored value, whichever weights it is given: the product of the block with the transposed
    weights, cut below at zero. Narrowing to the short format and the cast to the same shape change nothing over the
    extended reals. -/
theorem relu_matmul_at (x : Vec Ideal S5000x128 .f32) (w : Vec Ideal S128x2 .f32) (r : Fin 5000) (j : Fin 2) :
    maximumf
        (matmul dot_S5000x128_S128x2_S5000x2_1_0_0_1_n_n none (k0_pay1 (F := Ideal) x)
          (truncf .bf16 (shapeCast S128x2 w Facts₀.shapeCasts_S128x2_S128x2) Facts₀.bitsLt_bf16_f32)
          (constant (F := Ideal) S5000x2 .f32 0x00000000#32))
        (broadcast S5000x2 (Scalar.ofBits (F := Ideal) .f32 0x00000000#32)) (ix2 r j)
      = max (∑ k : Fin 128, x (ix2 r k) * w (ix2 k j)) 0 := by
  rw [maximumf_apply, matmul_at, broadcast_apply, shapeCast_self]
  unfold k0_pay1
  simp only [truncf_apply]
  show max _ (Ideal.ofBits .f32 0x00000000#32) = _
  rw [Ideal.ofBits_zero_f32]

/-! ## The second kernel's layout operations, read at row `r`, head `j` -/

/-- A column of the factor block, spread over both heads, reads that column at the row. -/
theorem col0_at (f : FVec Ideal S5000x2 .f32) (r : Fin 5000) (j : Fin 2) :
    broadcastTo S5000x2 (extractStridedSlice S5000x1 ![0, 0] f Facts₀.slices_S5000x2_o0_0_S5000x1)
        Facts₀.broadcasts_S5000x1_S5000x2 (ix2 r j) = f (ix2 r 0) := by
  refine (broadcastTo_apply _ Facts₀.broadcasts_S5000x1_S5000x2 (ix2 r j) (ix2 r (0 : Fin 1)) (fun a => match a with
    | ⟨0, _⟩ => by show r.val = if (5000 : Nat) = 1 then 0 else r.val; rw [if_neg (by decide)]
    | ⟨1, _⟩ => by show 0 = if (1 : Nat) = 1 then 0 else j.val; rw [if_pos rfl])).trans ?_
  exact extractStridedSlice_apply ![0, 0] f Facts₀.slices_S5000x2_o0_0_S5000x1 (ix2 r (0 : Fin 1)) (ix2 r (0 : Fin 2)) (fun a => match a with
    | ⟨0, _⟩ => by show r.val = 0 + r.val; omega
    | ⟨1, _⟩ => by show 0 = 0 + 0; rfl)

/-- The same of the second column. -/
theorem col1_at (f : FVec Ideal S5000x2 .f32) (r : Fin 5000) (j : Fin 2) :
    broadcastTo S5000x2 (extractStridedSlice S5000x1 ![0, 1] f Facts₀.slices_S5000x2_o0_1_S5000x1)
        Facts₀.broadcasts_S5000x1_S5000x2 (ix2 r j) = f (ix2 r 1) := by
  refine (broadcastTo_apply _ Facts₀.broadcasts_S5000x1_S5000x2 (ix2 r j) (ix2 r (0 : Fin 1)) (fun a => match a with
    | ⟨0, _⟩ => by show r.val = if (5000 : Nat) = 1 then 0 else r.val; rw [if_neg (by decide)]
    | ⟨1, _⟩ => by show 0 = if (1 : Nat) = 1 then 0 else j.val; rw [if_pos rfl])).trans ?_
  exact extractStridedSlice_apply ![0, 1] f Facts₀.slices_S5000x2_o0_1_S5000x1 (ix2 r (0 : Fin 1)) (ix2 r (1 : Fin 2)) (fun a => match a with
    | ⟨0, _⟩ => by show r.val = 0 + r.val; omega
    | ⟨1, _⟩ => by show 1 = 1 + 0; rfl)

/-- The first row of the next block, spread down the rows, reads that row's head everywhere. -/
theorem row0_at (vn : FVec Ideal S5000x2 .f32) (r : Fin 5000) (j : Fin 2) :
    broadcastTo S5000x2 (extractStridedSlice S1x2 ![0, 0] vn Facts₀.slices_S5000x2_o0_0_S1x2)
        Facts₀.broadcasts_S1x2_S5000x2 (ix2 r j) = vn (ix2 0 j) := by
  refine (broadcastTo_apply _ Facts₀.broadcasts_S1x2_S5000x2 (ix2 r j) (ix2 (0 : Fin 1) j) (fun a => match a with
    | ⟨0, _⟩ => by show 0 = if (1 : Nat) = 1 then 0 else r.val; rw [if_pos rfl]
    | ⟨1, _⟩ => by show j.val = if (2 : Nat) = 1 then 0 else j.val; rw [if_neg (by decide)])).trans ?_
  exact extractStridedSlice_apply ![0, 0] vn Facts₀.slices_S5000x2_o0_0_S1x2 (ix2 (0 : Fin 1) j) (ix2 (0 : Fin 5000) j) (fun a => match a with
    | ⟨0, _⟩ => by show 0 = 0 + 0; rfl
    | ⟨1, _⟩ => by show j.val = 0 + j.val; omega)

/-- The rotation by 4999 of the 5000 rows reads, at a row that is not the last, the row below it. -/
theorem rot_at (v : FVec Ideal S5000x2 .f32) (r : Fin 5000) (j : Fin 2) (h : r.val + 1 < 5000) :
    dynamicRotate 0 4999#32 none v Facts₀.rotates_S5000x2_d0 (ix2 r j) = v (ix2 ⟨r.val + 1, h⟩ j) := by
  have h4999 : (4999#32 : BitVec 32).toNat = 4999 := by decide
  exact dynamicRotate_apply 0 4999#32 v Facts₀.rotates_S5000x2_d0 (ix2 r j) (ix2 ⟨r.val + 1, h⟩ j) (fun b => match b with
    | ⟨0, _⟩ => by
        show r.val + 1 = if (0 : Fin 2) = 0 then (r.val + 5000 - (4999#32 : BitVec 32).toNat % 5000) % 5000 else r.val
        rw [if_pos rfl, h4999]; omega
    | ⟨1, _⟩ => by
        show j.val = if (1 : Fin 2) = 0 then (j.val + 2 - (4999#32 : BitVec 32).toNat % 2) % 2 else j.val
        rw [if_neg (by decide)])

/-- The row counter compared with 4999, at a row: set exactly at the last row. -/
theorem mask_at (r : Fin 5000) (j : Fin 2) :
    cmpi .eq (iota .tc S5000x2 32 [0] Facts₀.iota_S5000x2_d0_w32) (broadcast S5000x2 4999#32) (ix2 r j)
      = if r.val = 4999 then 1#1 else 0#1 := by
  show IntOp.cmpi .eq (iota .tc S5000x2 32 [0] Facts₀.iota_S5000x2_d0_w32 (ix2 r j)) 4999#32 = _
  rw [iota_single_apply]
  show BitVec.ofBool (BitVec.ofNat 32 r.val == 4999#32) = _
  have hr : r.val < 5000 := r.isLt
  by_cases hl : r.val = 4999
  · rw [if_pos hl, hl]; rfl
  · rw [if_neg hl]
    have hne : BitVec.ofNat 32 r.val ≠ 4999#32 := fun he => hl (by
      have := congrArg BitVec.toNat he
      rw [BitVec.toNat_ofNat, BitVec.toNat_ofNat] at this
      omega)
    rw [show (BitVec.ofNat 32 r.val == 4999#32) = false from beq_false_of_ne hne]
    rfl

/-- Row `r`, head `j` of the first kernel's first store: the row of the block `x` against column `j` of the
    transposed weights `w`, summed over the 128 columns, cut below at zero. -/
theorem values_at (x : Vec Ideal S5000x128 .f32) (w : Vec Ideal S128x2 .f32) (r : Fin 5000) (j : Fin 2) :
    k0_pay2 (F := Ideal) x w (ix2 r j) = max (∑ k : Fin 128, x (ix2 r k) * w (ix2 k j)) 0 := by
  unfold k0_pay2
  exact relu_matmul_at x w r j

/-- The same of its second store. -/
theorem factors_at (x : Vec Ideal S5000x128 .f32) (w : Vec Ideal S128x2 .f32) (r : Fin 5000) (j : Fin 2) :
    k0_pay3 (F := Ideal) x w (ix2 r j) = max (∑ k : Fin 128, x (ix2 r k) * w (ix2 k j)) 0 := by
  unfold k0_pay3
  exact relu_matmul_at x w r j

/-- Row `r`, head `j` of the second kernel's store, from the factor block `f`, the value block `v` and the
    value block after it `vn`: the row's own values by its first factor plus the NEXT row's by its second — the
    next row of the block, or for the block's last row the first row of the block after it. -/
theorem combine_at (f v vn : Vec Ideal S5000x2 .f32) (r : Fin 5000) (j : Fin 2) :
    k1_pay1 (F := Ideal) f v vn (ix2 r j)
      = f (ix2 r 0) * v (ix2 r j)
        + f (ix2 r 1) * (if h : r.val + 1 < 5000 then v (ix2 ⟨r.val + 1, h⟩ j) else vn (ix2 0 j)) := by
  unfold k1_pay1
  rw [addf_apply, mulf_apply, mulf_apply, select_apply]
  simp only [shapeCast_self]
  rw [col0_at, col1_at, row0_at, mask_at]
  have hr : r.val < 5000 := r.isLt
  by_cases h : r.val + 1 < 5000
  · rw [dif_pos h, if_neg (by omega), select_zero, rot_at v r j h]
  · rw [dif_neg h, if_pos (by omega), select_one]

end Cert.KernelIdeal.Payloads

end
-- ==== Proof.Spec.lean ====
/-
  What the program computes, as one function of its three argument arrays over the extended reals.

  For a matrix `X` of 1,000,000 rows and 128 columns and two weight matrices `Wf`, `Wg` of 2 rows and 128
  columns, put `relu (x) = max x 0` and, for a row `i` and a head `j`,
    `reluDot X W i j = relu (∑ k, X i k * W j k)`.
  With `F = reluDot X Wf` (the factors) and `V = reluDot X Wg` (the values) the result at row `i`, head `j` is
    `F i 0 * V i j + F i 1 * V (i + 1 mod 1,000,000) j`:
  each row's values mixed with the next row's, cyclically, by that row's two factors.
-/
import Idealize.ShloMosaic.PureOps.Ideal
import Idealize.ShloMosaic.Lib.ValueIdx

noncomputable section

namespace Cert.Spec

open Idealize.ShloMosaic Idealize.ShloMosaic.ValueIdx

/-- The shapes of the argument arrays and of the result. -/
abbrev SX : Shape := ⟨2, ![1000000, 128]⟩
abbrev SW : Shape := ⟨2, ![2, 128]⟩
abbrev SO : Shape := ⟨2, ![1000000, 2]⟩

/-- Row `i` of `X` against row `j` of `W`, summed over the 128 columns, then cut below at zero. -/
def reluDot (X : SX.Idx → EReal) (W : SW.Idx → EReal) (i : Fin 1000000) (j : Fin 2) : EReal :=
  max (∑ k : Fin 128, X (ix2 i k) * W (ix2 j k)) 0

/-- The row after `i`, the last row followed by the first. -/
def nextRow (i : Fin 1000000) : Fin 1000000 := ⟨(i.val + 1) % 1000000, Nat.mod_lt _ (by norm_num)⟩

/-- The result at row `i`, head `j`: the row's own values by its first factor plus the next row's by its second. -/
def resultAt (X : SX.Idx → EReal) (Wf Wg : SW.Idx → EReal) (i : Fin 1000000) (j : Fin 2) : EReal :=
  reluDot X Wf i 0 * reluDot X Wg i j + reluDot X Wf i 1 * reluDot X Wg (nextRow i) j

/-- The whole result array. -/
def result (X : SX.Idx → EReal) (Wf Wg : SW.Idx → EReal) : SO.Idx → EReal :=
  fun y => resultAt X Wf Wg (y 0) (y 1)

theorem result_ix2 (X : SX.Idx → EReal) (Wf Wg : SW.Idx → EReal) (i : Fin 1000000) (j : Fin 2) :
    result X Wf Wg (ix2 i j) = resultAt X Wf Wg i j := rfl

/-! ## The same in two steps, the weights given transposed: what each kernel region leaves -/

abbrev SWt : Shape := ⟨2, ![128, 2]⟩

/-- `reluDot` with the weight matrix given transposed (128 rows, 2 columns). -/
def reluDotT (X : SX.Idx → EReal) (Wt : SWt.Idx → EReal) (i : Fin 1000000) (j : Fin 2) : EReal :=
  max (∑ k : Fin 128, X (ix2 i k) * Wt (ix2 k j)) 0

/-- The array of all of them. -/
def reluDotsT (X : SX.Idx → EReal) (Wt : SWt.Idx → EReal) : SO.Idx → EReal :=
  fun y => reluDotT X Wt (y 0) (y 1)

theorem reluDotsT_ix2 (X : SX.Idx → EReal) (Wt : SWt.Idx → EReal) (i : Fin 1000000) (j : Fin 2) :
    reluDotsT X Wt (ix2 i j) = reluDotT X Wt i j := rfl

/-- Each row of the values `Vm` mixed with the next row, cyclically, by that row's two factors in `Fm`. -/
def mix (Fm Vm : SO.Idx → EReal) : SO.Idx → EReal :=
  fun y => Fm (ix2 (y 0) 0) * Vm (ix2 (y 0) (y 1)) + Fm (ix2 (y 0) 1) * Vm (ix2 (nextRow (y 0)) (y 1))

theorem mix_ix2 (Fm Vm : SO.Idx → EReal) (i : Fin 1000000) (j : Fin 2) :
    mix Fm Vm (ix2 i j) = Fm (ix2 i 0) * Vm (ix2 i j) + Fm (ix2 i 1) * Vm (ix2 (nextRow i) j) := rfl

/-- The two steps compose to the result, when the transposed weights are the weights' transposes. -/
theorem result_eq_mix (X : SX.Idx → EReal) (Wf Wg : SW.Idx → EReal) (WfT WgT : SWt.Idx → EReal)
    (hf : ∀ (k : Fin 128) (j : Fin 2), WfT (ix2 k j) = Wf (ix2 j k))
    (hg : ∀ (k : Fin 128) (j : Fin 2), WgT (ix2 k j) = Wg (ix2 j k)) :
    result X Wf Wg = mix (reluDotsT X WfT) (reluDotsT X WgT) := by
  funext y
  obtain ⟨i, j, rfl⟩ : ∃ (i : Fin 1000000) (j : Fin 2), y = ix2 i j := ⟨y 0, y 1, eq_ix2 y⟩
  rw [result_ix2, mix_ix2, reluDotsT_ix2, reluDotsT_ix2, reluDotsT_ix2, reluDotsT_ix2]
  unfold resultAt reluDot reluDotT
  simp only [hf, hg]

theorem nextRow_of_lt (i : Fin 1000000) (h : i.val + 1 < 1000000) : nextRow i = ⟨i.val + 1, h⟩ :=
  Fin.ext (Nat.mod_eq_of_lt h)

theorem nextRow_last (i : Fin 1000000) (h : i.val = 999999) : nextRow i = ⟨0, by norm_num⟩ :=
  Fin.ext (by show (i.val + 1) % 1000000 = 0; rw [h])

end Cert.Spec

end
-- ==== Proof.Ideal.FirstValue.lean ====
/-
  What the first kernel region leaves in its two result arrays, at the ideal instance: block `t` of each, written back
  at point `t`, is rows 5000 t … 5000 t + 4999 of the array of cut inner products, and the 200 blocks fill the array.
-/
import proofs.«150139_j37993280701086_1_alg».proof.Proof.Ideal.ReluDots
import proofs.«150139_j37993280701086_1_alg».proof.Proof.Ideal.Payloads
import proofs.«150139_j37993280701086_1_alg».proof.Proof.Spec
import Idealize.ShloMosaic.Lib.Pipeline.Value

set_option maxRecDepth 16384

noncomputable section

namespace Cert.KernelIdeal.FirstValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The printed index maps, and the zero offsets of a whole-buffer access -/

theorem hz : (![0, 0] : Fin 2 → Nat) = fun _ => 0 :=
  funext fun a => by match a with | ⟨0, _⟩ => rfl | ⟨1, _⟩ => rfl

/-- The printed index maps, decided over the grid: at point `t` the matrix's window and the two results' windows are
    on block row `t`, block column 0; the two weights' windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks, read at an index -/

/-- Block `t` of the matrix at row `r`, column `k` is the matrix at row `5000 t + r`, column `k`. -/
theorem blkX_apply (c : Dev nD) (t : Fin cfg0.N) (r : Fin 5000) (k : Fin 128) (i : Fin 1000000)
    (hi : i.val = 5000 * t.val + r.val) :
    (ReluDots.blk (F := Ideal) V c 0 t : Vec Ideal S5000x128 .f32) (ix2 r k)
      = (V c main_arg0 : S1000000x128.Idx → Elt Ideal .f32) (ix2 i k) := by
  obtain ⟨e0, e1, -⟩ := idx_facts t
  unfold ReluDots.blk
  rw [View.read_apply]
  show V c main_arg0 _ = V c main_arg0 _
  congr 1
  funext a; apply Fin.ext
  match a with
  | ⟨0, _⟩ => show win0_0.index t (0 : Fin 2) * 5000 + 1 * r.val = i.val; rw [e0, hi]; omega
  | ⟨1, _⟩ => show win0_0.index t (1 : Fin 2) * 128 + 1 * k.val = k.val; rw [e1]; omega

/-- The value weights' one block is the transposed value weights. -/
theorem blkWg_apply (c : Dev nD) (t : Fin cfg0.N) (k : Fin 128) (j : Fin 2) :
    (ReluDots.blk (F := Ideal) V c 1 t : Vec Ideal S128x2 .f32) (ix2 k j)
      = (V c main_v0 : S128x2.Idx → Elt Ideal .f32) (ix2 k j) := by
  obtain ⟨-, -, e0, e1, -⟩ := idx_facts t
  unfold ReluDots.blk
  rw [View.read_apply]
  show V c main_v0 _ = V c main_v0 _
  congr 1
  funext a; apply Fin.ext
  match a with
  | ⟨0, _⟩ => show win0_1.index t (0 : Fin 2) * 128 + 1 * k.val = k.val; rw [e0]; omega
  | ⟨1, _⟩ => show win0_1.index t (1 : Fin 2) * 2 + 1 * j.val = j.val; rw [e1]; omega

/-- The factor weights' one block is the transposed factor weights. -/
theorem blkWf_apply (c : Dev nD) (t : Fin cfg0.N) (k : Fin 128) (j : Fin 2) :
    (ReluDots.blk (F := Ideal) V c 2 t : Vec Ideal S128x2 .f32) (ix2 k j)
      = (V c main_v1 : S128x2.Idx → Elt Ideal .f32) (ix2 k j) := by
  obtain ⟨-, -, -, -, e0, e1, -⟩ := idx_facts t
  unfold ReluDots.blk
  rw [View.read_apply]
  show V c main_v1 _ = V c main_v1 _
  congr 1
  funext a; apply Fin.ext
  match a with
  | ⟨0, _⟩ => show win0_2.index t (0 : Fin 2) * 128 + 1 * k.val = k.val; rw [e0]; omega
  | ⟨1, _⟩ => show win0_2.index t (1 : Fin 2) * 2 + 1 * j.val = j.val; rw [e1]; omega

/-! ## What a point writes back -/

/-- Row `i`, head `j` of the cut inner products, from a block whose row `r` is the matrix's row `i` and a block
    that is the whole of the transposed weights. -/
theorem reluDotT_of_blocks (X : S1000000x128.Idx → Elt Ideal .f32) (Wt : S128x2.Idx → Elt Ideal .f32)
    (xb : Vec Ideal S5000x128 .f32) (wb : Vec Ideal S128x2 .f32) (r : Fin 5000) (j : Fin 2) (i : Fin 1000000)
    (hx : ∀ k : Fin 128, xb (ix2 r k) = X (ix2 i k)) (hw : ∀ k : Fin 128, wb (ix2 k j) = Wt (ix2 k j)) :
    max (∑ k : Fin 128, xb (ix2 r k) * wb (ix2 k j)) 0 = Cert.Spec.reluDotT X Wt i j := by
  unfold Cert.Spec.reluDotT
  congr 1
  refine Finset.sum_congr rfl fun k _ => ?_
  rw [hx k, hw k]

/-- Where block `t` of a result array lies: row `r`, head `j` of the block is row `5000 t + r`, head `j`. -/
theorem embV (t : Fin cfg0.N) (r : Fin 5000) (j : Fin 2) (i : Fin 1000000) (hi : i.val = 5000 * t.val + r.val) :
    ((cfg0.win 3).blk t).view.emb (ix2 r j) = (ix2 i j : S1000000x2.Idx) := by
  obtain ⟨-, -, -, -, -, -, e0, e1, -⟩ := idx_facts t
  funext a; apply Fin.ext
  match a with
  | ⟨0, _⟩ => show win0_3.index t (0 : Fin 2) * 5000 + 1 * r.val = i.val; rw [e0, hi]; omega
  | ⟨1, _⟩ => show win0_3.index t (1 : Fin 2) * 2 + 1 * j.val = j.val; rw [e1]; omega

theorem embF (t : Fin cfg0.N) (r : Fin 5000) (j : Fin 2) (i : Fin 1000000) (hi : i.val = 5000 * t.val + r.val) :
    ((cfg0.win 4).blk t).view.emb (ix2 r j) = (ix2 i j : S1000000x2.Idx) := by
  obtain ⟨-, -, -, -, -, -, -, -, e0, e1⟩ := idx_facts t
  funext a; apply Fin.ext
  match a with
  | ⟨0, _⟩ => show win0_4.index t (0 : Fin 2) * 5000 + 1 * r.val = i.val; rw [e0, hi]; omega
  | ⟨1, _⟩ => show win0_4.index t (1 : Fin 2) * 2 + 1 * j.val = j.val; rw [e1]; omega

/-- Point `t` writes back block `t` of the array of cut inner products with the value weights. -/
theorem values_flushed (c : Dev nD) (t : Fin cfg0.N) :
    (ReluDots.dat (F := Ideal) V c).flushed 3 t
      = ((cfg0.win 3).blk t).view.read (Elt Ideal) (Cert.Spec.reluDotsT (V c main_arg0) (V c main_v0)) := by
  show (cfg0.win 3).cut (grid0.coords t) ((ReluDots.dat (F := Ideal) V c).after 3 t) = _
  rw [ReluDots.after_3]
  unfold ReluDots.outV
  rw [View.canon_unit_zero hz]
  simp only [View.ld_unit_zero (S := S5000x128) hz, View.ld_unit_zero (S := S128x2) hz]
  funext y
  obtain ⟨r, j, rfl⟩ : ∃ (r : Fin 5000) (j : Fin 2), y = ix2 r j := ⟨y 0, y 1, eq_ix2 y⟩
  have ht : t.val < 200 := lt_of_lt_of_eq t.isLt N_0
  have hlt : 5000 * t.val + r.val < 1000000 := by have := r.isLt; omega
  refine (Payloads.values_at _ _ r j).trans ?_
  rw [View.read_apply, embV t r j ⟨5000 * t.val + r.val, hlt⟩ rfl, Cert.Spec.reluDotsT_ix2]
  exact reluDotT_of_blocks (V c main_arg0) (V c main_v0) (ReluDots.blk (F := Ideal) V c 0 t) (ReluDots.blk (F := Ideal) V c 1 t)
    r j ⟨5000 * t.val + r.val, hlt⟩ (fun k => blkX_apply V c t r k _ rfl) (fun k => blkWg_apply V c t k j)

/-- Point `t` writes back block `t` of the array of cut inner products with the factor weights. -/
theorem factors_flushed (c : Dev nD) (t : Fin cfg0.N) :
    (ReluDots.dat (F := Ideal) V c).flushed 4 t
      = ((cfg0.win 4).blk t).view.read (Elt Ideal) (Cert.Spec.reluDotsT (V c main_arg0) (V c main_v1)) := by
  show (cfg0.win 4).cut (grid0.coords t) ((ReluDots.dat (F := Ideal) V c).after 4 t) = _
  rw [ReluDots.after_4]
  unfold ReluDots.outF
  rw [View.canon_unit_zero hz]
  simp only [View.ld_unit_zero (S := S5000x128) hz, View.ld_unit_zero (S := S128x2) hz]
  funext y
  obtain ⟨r, j, rfl⟩ : ∃ (r : Fin 5000) (j : Fin 2), y = ix2 r j := ⟨y 0, y 1, eq_ix2 y⟩
  have ht : t.val < 200 := lt_of_lt_of_eq t.isLt N_0
  have hlt : 5000 * t.val + r.val < 1000000 := by have := r.isLt; omega
  refine (Payloads.factors_at _ _ r j).trans ?_
  rw [View.read_apply, embF t r j ⟨5000 * t.val + r.val, hlt⟩ rfl, Cert.Spec.reluDotsT_ix2]
  exact reluDotT_of_blocks (V c main_arg0) (V c main_v1) (ReluDots.blk (F := Ideal) V c 0 t) (ReluDots.blk (F := Ideal) V c 2 t)
    r j ⟨5000 * t.val + r.val, hlt⟩ (fun k => blkX_apply V c t r k _ rfl) (fun k => blkWf_apply V c t k j)

/-! ## The 200 blocks fill each result array -/

/-- An index of the values' array is in point `t`'s block iff each coordinate is in the block's range on its axis. -/
theorem mem_blkV (t : Fin cfg0.N) (i : S1000000x2.Idx) :
    i ∈ ((cfg0.win 3).blk t).view.set
      ↔ ∀ a : Fin 2, win0_3.index t a * S5000x2.size a ≤ (i a).val ∧ (i a).val < win0_3.index t a * S5000x2.size a + S5000x2.size a := by
  show i ∈ ((View.whole main_v2_0).slice (win0_3.rect t)).set ↔ _
  rw [View.set_slice_whole, Rect.mem_set_unit]
  exact Iff.rfl

/-- The same of the factors' array. -/
theorem mem_blkF (t : Fin cfg0.N) (i : S1000000x2.Idx) :
    i ∈ ((cfg0.win 4).blk t).view.set
      ↔ ∀ a : Fin 2, win0_4.index t a * S5000x2.size a ≤ (i a).val ∧ (i a).val < win0_4.index t a * S5000x2.size a + S5000x2.size a := by
  show i ∈ ((View.whole main_v2_1).slice (win0_4.rect t)).set ↔ _
  rw [View.set_slice_whole, Rect.mem_set_unit]
  exact Iff.rfl

/-- Row `i` lies in the block of point `i / 5000`. -/
theorem pointOf (i : S1000000x2.Idx) : ∃ t : Fin cfg0.N, t.val = (i 0).val / 5000 := by
  have hi0 : (i 0).val < 1000000 := (i 0).isLt
  exact ⟨⟨(i 0).val / 5000, by rw [show cfg0.N = 200 from N_0]; omega⟩, rfl⟩

theorem values_cover (i : S1000000x2.Idx) :
    ∃ t : Fin cfg0.N, (cfg0.win 3).flush t = true ∧ i ∈ ((cfg0.win 3).blk t).view.set := by
  have hi1 : (i 1).val < 2 := (i 1).isLt
  obtain ⟨t, ht⟩ := pointOf i
  obtain ⟨-, -, -, -, -, -, e0, e1, -⟩ := idx_facts t
  refine ⟨t, flush0_3 t, ?_⟩
  rw [mem_blkV]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 2 ≤ (i 1).val ∧ (i 1).val < win0_3.index t (1 : Fin 2) * 2 + 2
    rw [e1]; omega

theorem factors_cover (i : S1000000x2.Idx) :
    ∃ t : Fin cfg0.N, (cfg0.win 4).flush t = true ∧ i ∈ ((cfg0.win 4).blk t).view.set := by
  have hi1 : (i 1).val < 2 := (i 1).isLt
  obtain ⟨t, ht⟩ := pointOf i
  obtain ⟨-, -, -, -, -, -, -, -, e0, e1⟩ := idx_facts t
  refine ⟨t, flush0_4 t, ?_⟩
  rw [mem_blkF]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 2 ≤ (i 1).val ∧ (i 1).val < win0_4.index t (1 : Fin 2) * 2 + 2
    rw [e1]; omega

/-! ## The two result arrays after the region -/

/-- After the region's 200 write-backs the values' array holds, at row `i` and head `j`, row `i` of the matrix against
    column `j` of the transposed value weights, cut below at zero. -/
theorem values_final (c : Dev nD) :
    (ReluDots.dat (F := Ideal) V c).arrAt 3 cfg0.N = Cert.Spec.reluDotsT (V c main_arg0) (V c main_v0) := by
  exact (ReluDots.dat (F := Ideal) V c).arrAt_eq_of_cover 3 (Cert.Spec.reluDotsT (V c main_arg0) (V c main_v0))
    (fun t _ => values_flushed V c t) values_cover

/-- The same of the factors' array, against the transposed factor weights. -/
theorem factors_final (c : Dev nD) :
    (ReluDots.dat (F := Ideal) V c).arrAt 4 cfg0.N = Cert.Spec.reluDotsT (V c main_arg0) (V c main_v1) := by
  exact (ReluDots.dat (F := Ideal) V c).arrAt_eq_of_cover 4 (Cert.Spec.reluDotsT (V c main_arg0) (V c main_v1))
    (fun t _ => factors_flushed V c t) factors_cover

end Cert.KernelIdeal.FirstValue

end
-- ==== Proof.Ideal.SecondValue.lean ====
/-
  What the second kernel region leaves in the result array, at the ideal instance: block `t`, written back at point
  `t`, is rows 5000 t … 5000 t + 4999 of the factors' and values' arrays mixed row with next row, and the 200 blocks
  fill the array. The next row of a block's last row is the first row of the block after it, which the region reads
  through its third window, at block `t + 1 mod 200`.
-/
import proofs.«150139_j37993280701086_1_alg».proof.Proof.Ideal.Combine
import proofs.«150139_j37993280701086_1_alg».proof.Proof.Ideal.Payloads
import proofs.«150139_j37993280701086_1_alg».proof.Proof.Spec
import Idealize.ShloMosaic.Lib.Pipeline.Value

set_option maxRecDepth 16384

noncomputable section

namespace Cert.KernelIdeal.SecondValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The printed index maps, over the grid -/

theorem offsets_zero : (![0, 0] : Fin 2 → Nat) = fun _ => 0 := funext fun a => by fin_cases a <;> rfl

/-- At point `t` the factors', the values' and the result's windows are on block `t`, the third window on block
    `t + 1 mod 200`; every window takes both columns. -/
theorem block_of_point : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = (t.val + 1) % 200 ∧ win1_2.index t (1 : Fin 2) = 0)
    ∧ (win1_3.index t (0 : Fin 2) = t.val ∧ win1_3.index t (1 : Fin 2) = 0) :=
  (by decide +kernel : ∀ t : Fin grid1.N, _)

/-! ## Rows of the arrays under the blocks -/

/-- Row `r` of block `b` of the 200 blocks of 5000 rows. -/
abbrev rowOf (b : Nat) (hb : b < 200) (r : Fin 5000) : Fin 1000000 :=
  ⟨5000 * b + r.val, by have := r.isLt; omega⟩

/-- The factors' block at point `t` is rows `5000 t …` of the factors' array. -/
theorem factors_blk (c : Dev nD) (t : Fin cfg1.N) (ht : t.val < 200) (r : Fin 5000) (j : Fin 2) :
    Combine.blk V c 0 t (ix2 r j) = V c main_v2_1 (ix2 (rowOf t.val ht r) j) := by
  obtain ⟨⟨e0, e1⟩, -, -, -⟩ := block_of_point t
  show V c main_v2_1 (((cfg1.win 0).blk t).view.emb (ix2 r j)) = _
  congr 1
  funext a; apply Fin.ext
  match a with
  | ⟨0, _⟩ => show win1_0.index t (0 : Fin 2) * 5000 + 1 * r.val = 5000 * t.val + r.val; rw [e0]; omega
  | ⟨1, _⟩ => show win1_0.index t (1 : Fin 2) * 2 + 1 * j.val = j.val; rw [e1]; omega

/-- The values' block at point `t` is rows `5000 t …` of the values' array. -/
theorem values_blk (c : Dev nD) (t : Fin cfg1.N) (ht : t.val < 200) (r : Fin 5000) (j : Fin 2) :
    Combine.blk V c 1 t (ix2 r j) = V c main_v2_0 (ix2 (rowOf t.val ht r) j) := by
  obtain ⟨-, ⟨e0, e1⟩, -, -⟩ := block_of_point t
  show V c main_v2_0 (((cfg1.win 1).blk t).view.emb (ix2 r j)) = _
  congr 1
  funext a; apply Fin.ext
  match a with
  | ⟨0, _⟩ => show win1_1.index t (0 : Fin 2) * 5000 + 1 * r.val = 5000 * t.val + r.val; rw [e0]; omega
  | ⟨1, _⟩ => show win1_1.index t (1 : Fin 2) * 2 + 1 * j.val = j.val; rw [e1]; omega

/-- The third window's block at point `t` is rows `5000 ((t + 1) mod 200) …` of the same values' array. -/
theorem next_blk (c : Dev nD) (t : Fin cfg1.N) (r : Fin 5000) (j : Fin 2) :
    Combine.blk V c 2 t (ix2 r j) = V c main_v2_0 (ix2 (rowOf ((t.val + 1) % 200) (Nat.mod_lt _ (by norm_num)) r) j) := by
  obtain ⟨-, -, ⟨e0, e1⟩, -⟩ := block_of_point t
  show V c main_v2_0 (((cfg1.win 2).blk t).view.emb (ix2 r j)) = _
  congr 1
  funext a; apply Fin.ext
  match a with
  | ⟨0, _⟩ => show win1_2.index t (0 : Fin 2) * 5000 + 1 * r.val = 5000 * ((t.val + 1) % 200) + r.val; rw [e0]; omega
  | ⟨1, _⟩ => show win1_2.index t (1 : Fin 2) * 2 + 1 * j.val = j.val; rw [e1]; omega

/-- An index of the result's block at point `t` lies in the array at row `5000 t + r`. -/
theorem result_emb (t : Fin cfg1.N) (ht : t.val < 200) (r : Fin 5000) (j : Fin 2) :
    ((cfg1.win 3).blk t).view.emb (ix2 r j) = ix2 (rowOf t.val ht r) j := by
  obtain ⟨-, -, -, ⟨e0, e1⟩⟩ := block_of_point t
  funext a; apply Fin.ext
  match a with
  | ⟨0, _⟩ => show win1_3.index t (0 : Fin 2) * 5000 + 1 * r.val = 5000 * t.val + r.val; rw [e0]; omega
  | ⟨1, _⟩ => show win1_3.index t (1 : Fin 2) * 2 + 1 * j.val = j.val; rw [e1]; omega

/-! ## The next row, block by block -/

/-- Inside a block the next row is the block's next row. -/
theorem nextRow_inside (b : Nat) (hb : b < 200) (r : Fin 5000) (h : r.val + 1 < 5000) :
    Cert.Spec.nextRow (rowOf b hb r) = rowOf b hb ⟨r.val + 1, h⟩ :=
  Fin.ext (by show (5000 * b + r.val + 1) % 1000000 = 5000 * b + (r.val + 1); omega)

/-- After a block's last row comes the first row of the block after it, the last block followed by the first. -/
theorem nextRow_across (b : Nat) (hb : b < 200) (r : Fin 5000) (h : ¬ r.val + 1 < 5000) :
    Cert.Spec.nextRow (rowOf b hb r) = rowOf ((b + 1) % 200) (Nat.mod_lt _ (by norm_num)) 0 :=
  Fin.ext (by
    have hr := r.isLt
    show (5000 * b + r.val + 1) % 1000000 = 5000 * ((b + 1) % 200) + 0
    omega)

/-! ## What a point writes back, and the whole array -/

/-- Point `t` writes back block `t` of the two arrays mixed row with next row. -/
theorem flushed_eq (c : Dev nD) (t : Fin cfg1.N) :
    (Combine.dat (F := Ideal) V c).flushed 3 t
      = ((cfg1.win 3).blk t).view.read (Elt Ideal) (Cert.Spec.mix (V c main_v2_1) (V c main_v2_0)) := by
  have ht : t.val < 200 := t.isLt
  show (cfg1.win 3).cut (grid1.coords t) ((Combine.dat (F := Ideal) V c).after 3 t) = _
  rw [Combine.after_3]
  unfold Combine.out
  rw [View.canon_unit_zero offsets_zero]
  simp only [View.ld_unit_zero (S := S5000x2) offsets_zero]
  funext y
  obtain ⟨r, j, rfl⟩ : ∃ (r : Fin 5000) (j : Fin 2), y = ix2 r j := ⟨y 0, y 1, eq_ix2 y⟩
  show k1_pay1 (F := Ideal) (Combine.blk V c 0 t) (Combine.blk V c 1 t) (Combine.blk V c 2 t) (ix2 r j)
    = Cert.Spec.mix (V c main_v2_1) (V c main_v2_0) (((cfg1.win 3).blk t).view.emb (ix2 r j))
  refine (Payloads.combine_at _ _ _ r j).trans ?_
  rw [result_emb t ht r j, Cert.Spec.mix_ix2, factors_blk V c t ht, factors_blk V c t ht, values_blk V c t ht]
  by_cases h : r.val + 1 < 5000
  · rw [dif_pos h, values_blk V c t ht, nextRow_inside t.val ht r h]
  · rw [dif_neg h, next_blk V c t, nextRow_across t.val ht r h]

/-- An index of the result array is in point `t`'s block exactly when its row is one of the block's 5000 rows. -/
theorem mem_blk (t : Fin cfg1.N) (i : S1000000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v3).slice (win1_3.rect t)).set ↔ _
  rw [View.set_slice_whole, Rect.mem_set_unit]
  exact Iff.rfl

/-- Row `i` is written back at point `i / 5000`: the 200 blocks fill the array. -/
theorem covered (i : S1000000x2.Idx) :
    ∃ t : Fin cfg1.N, (cfg1.win 3).flush t = true ∧ i ∈ ((cfg1.win 3).blk t).view.set := by
  have hi0 : (i 0).val < 1000000 := (i 0).isLt
  have hi1 : (i 1).val < 2 := (i 1).isLt
  refine ⟨⟨(i 0).val / 5000, by show (i 0).val / 5000 < 200; omega⟩, flush1_3 _, ?_⟩
  obtain ⟨-, -, -, ⟨e0, e1⟩⟩ := block_of_point ⟨(i 0).val / 5000, by show (i 0).val / 5000 < 200; omega⟩
  rw [mem_blk]
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 2 ≤ (i 1).val ∧ (i 1).val < win1_3.index _ (1 : Fin 2) * 2 + 2
    rw [e1]; omega

/-- After the region's 200 write-backs the result array holds the factors' array (`main_v2_1`) and the values' array
    (`main_v2_0`) as the region found them, mixed row with next row. -/
theorem result_final (c : Dev nD) :
    (Combine.dat (F := Ideal) V c).arrAt 3 cfg1.N = Cert.Spec.mix (V c main_v2_1) (V c main_v2_0) := by
  exact (Combine.dat (F := Ideal) V c).arrAt_eq_of_cover 3 (Cert.Spec.mix (V c main_v2_1) (V c main_v2_0))
    (fun t _ => flushed_eq V c t) covered

end Cert.KernelIdeal.SecondValue

end
-- ==== Proof.Ideal.Result.lean ====
/-
  The result array after the whole run, at the ideal instance, is the specification's function of the three arguments.
  The second region leaves the factors and values it found mixed row with next row; it found what the first region
  left, the cut inner products of the matrix with the TRANSPOSED weights; and the transposes the program starts with
  make those the weights' transposes: row k, column j of the one is row j, column k of the other.
-/
import proofs.«150139_j37993280701086_1_alg».proof.Proof.Ideal.Ends
import proofs.«150139_j37993280701086_1_alg».proof.Proof.Ideal.FirstValue
import proofs.«150139_j37993280701086_1_alg».proof.Proof.Ideal.SecondValue
import proofs.«150139_j37993280701086_1_alg».proof.Proof.Spec
import Idealize.ShloMosaic.Lib.StableHlo.Run
import Idealize.ShloMosaic.Lib.Pipeline.Value

set_option maxRecDepth 16384

noncomputable section

namespace Cert.KernelIdeal.Result

open Cert.KernelIdeal Cert.KernelIdeal.Gen Cert.KernelIdeal.Whole
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- After the program's two transposes the first holds the value weights transposed, -/
theorem valueWeightsT (c : Dev nD) :
    (V1 m c main_v0 : S128x2.Idx → EReal)
      = transpose S128x2 [1, 0] (m ((c : Thread nD τ).loc main_arg2)) transposes_S2x128_S128x2_1_0 := by
  show StableHlo.after hostOps0 (W0 m c) (Proc.devRef .tc main_v0) = _
  after_results

/-- and the second the factor weights transposed. -/
theorem factorWeightsT (c : Dev nD) :
    (V1 m c main_v1 : S128x2.Idx → EReal)
      = transpose S128x2 [1, 0] (m ((c : Thread nD τ).loc main_arg1)) transposes_S2x128_S128x2_1_0 := by
  show StableHlo.after hostOps0 (W0 m c) (Proc.devRef .tc main_v1) = _
  after_results

/-- Row `k`, column `j` of a transposed weight matrix is row `j`, column `k` of the matrix. -/
theorem transposed_at (x : S2x128.Idx → EReal) (k : Fin 128) (j : Fin 2) :
    transpose S128x2 [1, 0] x transposes_S2x128_S128x2_1_0 (ix2 k j) = x (ix2 j k) :=
  transpose_apply [1, 0] x transposes_S2x128_S128x2_1_0 (ix2 k j) (ix2 j k) (fun b => match b with
    | ⟨0, _⟩ => rfl
    | ⟨1, _⟩ => rfl)

/-- The result array's final contents are the specification's result of the launch contents of the three arguments:
    the matrix, the factor weights, the value weights. -/
theorem result_eq (c : Dev nD) :
    (Combine.dat (F := Ideal) (V2 m) c).arrAt 3 cfg1.N
      = Cert.Spec.result (m ((c : Thread nD τ).loc main_arg0)) (m ((c : Thread nD τ).loc main_arg1)) (m ((c : Thread nD τ).loc main_arg2)) := by
  rw [SecondValue.result_final (V2 m) c, V2_factors, V2_values, FirstValue.factors_final (V1 m) c,
    FirstValue.values_final (V1 m) c, V1_matrix, factorWeightsT, valueWeightsT]
  exact (Cert.Spec.result_eq_mix _ _ _ _ _ (transposed_at _) (transposed_at _)).symm

end Cert.KernelIdeal.Result

end
-- ==== Proof.RefResult.lean ====
/-
  The reference's result, read operation by operation, is the specification's function of the three arguments.
-/
import proofs.«150139_j37993280701086_1_alg».proof.Proof.Gen.ReferenceIdeal.Read
import proofs.«150139_j37993280701086_1_alg».proof.Proof.Spec

noncomputable section

namespace Cert.ReferenceIdeal.RefResult

open Cert.ReferenceIdeal Cert.ReferenceIdeal.Gen Idealize.ShloMosaic Idealize.ShloMosaic.ValueIdx

/-! ## The zero the two cuts compare against -/

/-- The array the value stage is cut against holds zero at every index. -/
theorem zeroV_apply (y : S1000000x2.Idx) : Read.val_main_call0_v0 (F := Ideal) y = (0 : EReal) := by
  rw [Read.val_main_call0_v0_apply, Read.val_main_call0_cst_apply]
  exact Ideal.ofBits_zero_f32

/-- The array the factor stage is cut against holds zero at every index. -/
theorem zeroF_apply (y : S1000000x2.Idx) : Read.val_main_call1_v0 (F := Ideal) y = (0 : EReal) := by
  rw [Read.val_main_call1_v0_apply, Read.val_main_call1_cst_apply]
  exact Ideal.ofBits_zero_f32

/-! ## Where the two products read their operands

Row `i`, head `j` of a product reads the matrix at row `i`, column `k`, and the transposed weights at row `k`,
column `j`, that is the weights at row `j`, column `k`. -/

theorem lidxV (i : Fin 1000000) (j : Fin 2) (k : Fin 128) : Read.lidx_main_v1 (ix2 i j) k = ix2 i k :=
  funext fun a => Fin.ext (by match a with | ⟨0, _⟩ => rfl | ⟨1, _⟩ => rfl)

theorem ridxV (i : Fin 1000000) (j : Fin 2) (k : Fin 128) :
    Read.idx_main_v0 (Read.ridx_main_v1 (ix2 i j) k) = ix2 j k :=
  funext fun a => Fin.ext (by match a with | ⟨0, _⟩ => rfl | ⟨1, _⟩ => rfl)

theorem lidxF (i : Fin 1000000) (j : Fin 2) (k : Fin 128) : Read.lidx_main_v4 (ix2 i j) k = ix2 i k :=
  funext fun a => Fin.ext (by match a with | ⟨0, _⟩ => rfl | ⟨1, _⟩ => rfl)

theorem ridxF (i : Fin 1000000) (j : Fin 2) (k : Fin 128) :
    Read.idx_main_v3 (Read.ridx_main_v4 (ix2 i j) k) = ix2 j k :=
  funext fun a => Fin.ext (by match a with | ⟨0, _⟩ => rfl | ⟨1, _⟩ => rfl)

/-! ## The two cut products -/

/-- The values: row `i` of the matrix against row `j` of the value weights, cut below at zero. -/
theorem values_at (x0 : (⟨S1000000x128, .f32⟩ : BufTy).Contents (Elt Ideal)) (x2 : (⟨S2x128, .f32⟩ : BufTy).Contents (Elt Ideal))
    (i : Fin 1000000) (j : Fin 2) :
    Read.val_main_v2 (F := Ideal) x0 x2 (ix2 i j) = Cert.Spec.reluDot x0 x2 i j := by
  rw [Read.val_main_v2_apply, Read.val_main_v1_apply, zeroV_apply, Ideal.maximumf_def]
  unfold Cert.Spec.reluDot
  congr 1
  refine Finset.sum_congr rfl fun k _ => ?_
  rw [Read.val_main_v0_apply, lidxV, ridxV]

/-- The factors: row `i` of the matrix against row `j` of the factor weights, cut below at zero. -/
theorem factors_at (x0 : (⟨S1000000x128, .f32⟩ : BufTy).Contents (Elt Ideal)) (x1 : (⟨S2x128, .f32⟩ : BufTy).Contents (Elt Ideal))
    (i : Fin 1000000) (j : Fin 2) :
    Read.val_main_v5 (F := Ideal) x0 x1 (ix2 i j) = Cert.Spec.reluDot x0 x1 i j := by
  rw [Read.val_main_v5_apply, Read.val_main_v4_apply, zeroF_apply, Ideal.maximumf_def]
  unfold Cert.Spec.reluDot
  congr 1
  refine Finset.sum_congr rfl fun k _ => ?_
  rw [Read.val_main_v3_apply, lidxF, ridxF]

/-! ## The values rolled up by one row

The rolled array is rows 1 to 999,999 of the values followed by row 0: below the seam (row `i` with `i + 1` still
a row) it reads the first piece at row `i`, which is the values' row `i + 1`; at the last row it reads the second
piece's only row, the values' row 0. -/

theorem rolled_at (x0 : (⟨S1000000x128, .f32⟩ : BufTy).Contents (Elt Ideal)) (x2 : (⟨S2x128, .f32⟩ : BufTy).Contents (Elt Ideal))
    (i : Fin 1000000) (j : Fin 2) :
    Read.val_main_v6 (F := Ideal) x0 x2 (ix2 i j) = Cert.Spec.reluDot x0 x2 (Cert.Spec.nextRow i) j := by
  unfold Read.val_main_v6
  by_cases h : i.val + 1 < 1000000
  · have hi : i.val < 999999 := by omega
    rw [Cert.Spec.nextRow_of_lt i h,
      concatenate_pair_apply_left (s₁ := S999999x2) (s₂ := S1x2) (0 : Fin S1000000x2.rank) _ _ _ (ix2 i j) rfl
        (ix2 (⟨i.val, hi⟩ : Fin 999999) j)
        (fun b => by match b with | ⟨0, _⟩ => rfl | ⟨1, _⟩ => rfl),
      Read.val_main_call2_v0_apply]
    have e : Read.idx_main_call2_v0 (ix2 (⟨i.val, hi⟩ : Fin 999999) j) = ix2 (⟨i.val + 1, h⟩ : Fin 1000000) j :=
      funext fun a => Fin.ext (by
        match a with
        | ⟨0, _⟩ => show 1 + i.val = i.val + 1; omega
        | ⟨1, _⟩ => rfl)
    rw [e, values_at]
  · have hl : i.val = 999999 := by omega
    rw [Cert.Spec.nextRow_last i hl,
      concatenate_pair_apply_right (s₁ := S999999x2) (s₂ := S1x2) (0 : Fin S1000000x2.rank) _ _ _ (ix2 i j) rfl rfl
        (ix2 (⟨0, Nat.one_pos⟩ : Fin 1) j)
        (fun b hb => by
          match b, hb with
          | ⟨0, _⟩, hb => exact absurd rfl hb
          | ⟨1, _⟩, _ => rfl)
        (by show 0 + 999999 = i.val; omega),
      Read.val_main_call2_v1_apply]
    have e : Read.idx_main_call2_v1 (ix2 (⟨0, Nat.one_pos⟩ : Fin 1) j) = ix2 (⟨0, by norm_num⟩ : Fin 1000000) j :=
      funext fun a => Fin.ext (by match a with | ⟨0, _⟩ => rfl | ⟨1, _⟩ => rfl)
    rw [e, values_at]

/-! ## The result -/

/-- The result at row `i`, head `j`: the row's own values by its first factor plus the next row's by its second. -/
theorem result_at (x0 : (⟨S1000000x128, .f32⟩ : BufTy).Contents (Elt Ideal)) (x1 x2 : (⟨S2x128, .f32⟩ : BufTy).Contents (Elt Ideal))
    (i : Fin 1000000) (j : Fin 2) :
    Read.val_main_v13 (F := Ideal) x0 x1 x2 (ix2 i j) = Cert.Spec.resultAt x0 x1 x2 i j := by
  have e0 : Read.idx_main_v7 (Read.idx_main_v8 (ix2 i j)) = ix2 i (0 : Fin 2) :=
    funext fun a => Fin.ext (by match a with | ⟨0, _⟩ => rfl | ⟨1, _⟩ => rfl)
  have e1 : Read.idx_main_v10 (Read.idx_main_v11 (ix2 i j)) = ix2 i (1 : Fin 2) :=
    funext fun a => Fin.ext (by match a with | ⟨0, _⟩ => rfl | ⟨1, _⟩ => rfl)
  rw [Read.val_main_v13_apply, Read.val_main_v9_apply, Read.val_main_v12_apply, Read.val_main_v8_apply,
    Read.val_main_v7_apply, Read.val_main_v11_apply, Read.val_main_v10_apply, e0, e1, factors_at, factors_at,
    values_at, rolled_at, Ideal.addf_def, Ideal.mulf_def, Ideal.mulf_def]
  rfl

/-- The reference's result term (`x0` the matrix, `x1` the factor weights, `x2` the value weights) is the
    specification's result array. -/
theorem result_eq (x0 : (⟨S1000000x128, .f32⟩ : BufTy).Contents (Elt Ideal)) (x1 x2 : (⟨S2x128, .f32⟩ : BufTy).Contents (Elt Ideal)) :
    Cert.ReferenceIdeal.Read.val_main_v13 (F := Ideal) x0 x1 x2 = Cert.Spec.result x0 x1 x2 := by
  funext y
  rw [ValueIdx.eq_ix2 y]
  exact result_at x0 x1 x2 (y 0) (y 1)

end Cert.ReferenceIdeal.RefResult

end
-- ==== Proof.lean ====
/-
  The certificate's claim: the three frames, the idealization's ledger (empty), and the equality of the two idealized
  programs' results over the extended reals.

  The program computes, for a matrix X of 1,000,000 rows and 128 columns and two weight matrices Wf, Wg of 2 rows,
  F = relu (X Wfᵀ), V = relu (X Wgᵀ) and the result F[i,0] · V[i] + F[i,1] · V[i+1 mod 1,000,000], row by row. The
  kernel does it in two passes over 200 blocks of 5000 rows: the first writes V and F block by block (its products on
  the matrix unit, the operands narrowed first, which at the ideal instance changes nothing), the second mixes each
  block of V with itself shifted up one row, the block's last row taking the first row of the block after it (read
  through a second window on V, at the next block cyclically). The reference takes the two products whole, rolls V up
  by one row, and mixes. Both are the same sums, the same maxima against zero and the same products and sums in the
  same order, so the equality needs no law beyond reading both sides index by index: finiteness is not used.

  Each program's frame is a run of its whole @main: for the kernel, as written at any float instance, the contents
  of the core's buffers followed through the two transposes and the two regions; for the reference, the run of its
  host operations.
-/
import proofs.«150139_j37993280701086_1_alg».proof.Defs
import proofs.«150139_j37993280701086_1_alg».proof.Proof.Gen.Kernel
import proofs.«150139_j37993280701086_1_alg».proof.Proof.Gen.KernelIdeal
import proofs.«150139_j37993280701086_1_alg».proof.Proof.Gen.ReferenceIdeal
import proofs.«150139_j37993280701086_1_alg».proof.Proof.Gen.Pre_finite_inputs
import proofs.«150139_j37993280701086_1_alg».proof.Proof.Gen.ReferenceIdeal.Run
import proofs.«150139_j37993280701086_1_alg».proof.Proof.Gen.ReferenceIdeal.Read
import proofs.«150139_j37993280701086_1_alg».proof.Proof.Bits.Ends
import proofs.«150139_j37993280701086_1_alg».proof.Proof.Ideal.Ends
import proofs.«150139_j37993280701086_1_alg».proof.Proof.Ideal.Result
import proofs.«150139_j37993280701086_1_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs to its end, faults nowhere and leaves its three arguments as launched. -/
theorem frame_kernel : Cert.frame_Kernel := fun m ρ _ => Cert.Kernel.Whole.frame m ρ

/-- So does its idealization. -/
theorem frame_kernelIdeal : Cert.frame_KernelIdeal := fun m ρ _ => Cert.KernelIdeal.Whole.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the ledger is empty. -/
theorem preserves : Cert.preserves_Kernel_KernelIdeal := trivial

/-- From memories agreeing on the three arguments both idealized programs end with the specification's result array
    of those arguments: the kernel's by its run and the two regions' values, the reference's by its run read
    operation by operation. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Result.result_eq m c), (h c).2⟩)
      (Cert.KernelIdeal.Whole.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v13_eq, Cert.ReferenceIdeal.RefResult.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
